-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x64 : Shape := ⟨3, ![64, 512, 64]⟩
abbrev S64x512x512 : Shape := ⟨3, ![64, 512, 512]⟩
abbrev S64x512 : Shape := ⟨2, ![64, 512]⟩
abbrev S512x512 : Shape := ⟨2, ![512, 512]⟩
abbrev S_ : Shape := ⟨0, ![]⟩

class Facts : Prop where
  bcast_S_S64x512x64 : S_.BroadcastsInDim S64x512x64 (![] : Fin 0 → Fin S64x512x64.rank)
  reducesTo_S64x512x64_S_d0_1_2 : S64x512x64.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_arg14 : FVec F S512x512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  main_v73

def fn_part3 {F : FTy → Type} [FloatOps F] (main_arg11 : FVec F S512x512 .f32) (main_arg12 : FVec F S64x512 .f32) (main_arg13 : FVec F S512x512 .f32) (main_arg14 : FVec F S512x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S64x512 .f32 := Host.absf main_arg12
  let main_cst_22 : FVec F S_ .f32 := constant S_ .f32 0x7F800000#32
  let main_v60 : FVec F S64x512 .f32 := broadcastInDim S64x512 ![] bcast_S_S64x512 main_cst_22
  let main_v61 : IVec S64x512 1 := cmpf .olt main_v59 main_v60
  let main_c_23 : IVec S_ 1 := constantI S_ 1 1#1
  let main_v62 : IVec S_ 1 := (fun x v => Host.reduce IntOp.andi x v reducesTo_S64x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_v63 main_v67

def fn_part2 {F : FTy → Type} [FloatOps F] (main_arg7 : FVec F S512x512 .f32) (main_arg8 : FVec F S512x512 .f32) (main_arg9 : FVec F S64x512 .f32) (main_arg10 : FVec F S512x512 .f32) (main_arg11 : FVec F S512x512 .f32) (main_arg12 : FVec F S64x512 .f32) (main_arg13 : FVec F S512x512 .f32) (main_arg14 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S64x512 .f32 := Host.absf main_arg9
  let main_cst_16 : FVec F S_ .f32 := constant S_ .f32 0x7F800000#32
  let main_v45 : FVec F S64x512 .f32 := broadcastInDim S64x512 ![] bcast_S_S64x512 main_cst_16
  let main_v46 : IVec S64x512 1 := cmpf .olt main_v44 main_v45
  let main_c_17 : IVec S_ 1 := constantI S_ 1 1#1
  let main_v47 : IVec S_ 1 := (fun x v => Host.reduce IntOp.andi x v reducesTo_S64x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_v48 main_v49 main_v50

def fn_part1 {F : FTy → Type} [FloatOps F] (main_arg4 : FVec F S512x512 .f32) (main_arg5 : FVec F S512x512 .f32) (main_arg6 : FVec F S64x512 .f32) (main_arg7 : FVec F S512x512 .f32) (main_arg8 : FVec F S512x512 .f32) (main_arg9 : FVec F S64x512 .f32) (main_arg10 : FVec F S512x512 .f32) (main_arg11 : FVec F S512x512 .f32) (main_arg12 : FVec F S64x512 .f32) (main_arg13 : FVec F S512x512 .f32) (main_arg14 : FVec F S512x512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S64x512 .f32 := Host.absf main_arg6
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S64x512x64 .f32) (main_arg1 : FVec F S64x512x512 .f32) (main_arg2 : FVec F S64x512x512 .f32) (main_arg3 : FVec F S64x512 .f32) (main_arg4 : FVec F S512x512 .f32) (main_arg5 : FVec F S512x512 .f32) (main_arg6 : FVec F S64x512 .f32) (main_arg7 : FVec F S512x512 .f32) (main_arg8 : FVec F S512x512 .f32) (main_arg9 : FVec F S64x512 .f32) (main_arg10 : FVec F S512x512 .f32) (main_arg11 : FVec F S512x512 .f32) (main_arg12 : FVec F S64x512 .f32) (main_arg13 : FVec F S512x512 .f32) (main_arg14 : FVec F S512x512 .f32) : IVec S_ 1 :=
  let main_v0 : FVec F S64x512x64 .f32 := Host.absf main_arg0
  let main_cst : FVec F S_ .f32 := constant S_ .f32 0x7F800000#32
  let main_v1 : FVec F S64x512x64 .f32 := broadcastInDim S64x512x64 ![] bcast_S_S64x512x64 main_cst
  let main_v2 : IVec S64x512x64 1 := cmpf .olt main_v0 main_v1
  let main_c : IVec S_ 1 := constantI S_ 1 1#1
  let main_v3 : IVec S_ 1 := (fun x v => Host.reduce IntOp.andi x v reducesTo_S64x512x64_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512x512 .f32 := Host.absf main_arg2
  let main_cst_2 : FVec F S_ .f32 := constant S_ .f32 0x7F800000#32
  let main_v10 : FVec F S64x512x512 .f32 := broadcastInDim S64x512x512 ![] bcast_S_S64x512x512 main_cst_2
  let main_v11 : IVec S64x512x512 1 := cmpf .olt main_v9 main_v10
  let main_c_3 : IVec S_ 1 := constantI S_ 1 1#1
  let main_v12 : IVec S_ 1 := (fun x v => Host.reduce IntOp.andi x v reducesTo_S64x512x512_S_d0_1_2 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S64x512x64 : Shape := ⟨3, ![64, 512, 64]⟩
abbrev S64x512x512 : Shape := ⟨3, ![64, 512, 512]⟩
abbrev S64x512 : Shape := ⟨2, ![64, 512]⟩
abbrev S512x512 : Shape := ⟨2, ![512, 512]⟩
abbrev S64x2048 : Shape := ⟨2, ![64, 2048]⟩
abbrev S512x2048 : Shape := ⟨2, ![512, 2048]⟩
abbrev S1x512x64 : Shape := ⟨3, ![1, 512, 64]⟩
abbrev S1x512x512 : Shape := ⟨3, ![1, 512, 512]⟩
abbrev S512x64 : Shape := ⟨2, ![512, 64]⟩

abbrev nBuf : Space → Nat
  | .hbm => 20
  | .vmem => 13
  | .smem => 0
  | _ => 0

abbrev bufTy : (tb : Table) → Fin (tcTables nBuf tb) → BufTy
  | .hbm, ⟨0, _⟩ => ⟨S64x512x64, .f32⟩
  | .hbm, ⟨1, _⟩ => ⟨S64x512x512, .f32⟩
  | .hbm, ⟨2, _⟩ => ⟨S64x512x512, .f32⟩
  | .hbm, ⟨3, _⟩ => ⟨S64x512, .f32⟩
  | .hbm, ⟨4, _⟩ => ⟨S512x512, .f32⟩
  | .hbm, ⟨5, _⟩ => ⟨S512x512, .f32⟩
  | .hbm, ⟨6, _⟩ => ⟨S64x512, .f32⟩
  | .hbm, ⟨7, _⟩ => ⟨S512x512, .f32⟩
  | .hbm, ⟨8, _⟩ => ⟨S512x512, .f32⟩
  | .hbm, ⟨9, _⟩ => ⟨S64x512, .f32⟩
  | .hbm, ⟨10, _⟩ => ⟨S512x512, .f32⟩
  | .hbm, ⟨11, _⟩ => ⟨S512x512, .f32⟩
  | .hbm, ⟨12, _⟩ => ⟨S64x512, .f32⟩
  | .hbm, ⟨13, _⟩ => ⟨S512x512, .f32⟩
  | .hbm, ⟨14, _⟩ => ⟨S512x512, .f32⟩
  | .hbm, ⟨15, _⟩ => ⟨S64x2048, .f32⟩
  | .hbm, ⟨16, _⟩ => ⟨S512x2048, .f32⟩
  | .hbm, ⟨17, _⟩ => ⟨S512x2048, .f32⟩
  | .hbm, ⟨18, _⟩ => ⟨S64x512x512, .f32⟩
  | .hbm, ⟨19, _⟩ => ⟨S64x512x512, .f32⟩
  | .local _ .vmem, ⟨0, _⟩ => ⟨S1x512x64, .f32⟩
  | .local _ .vmem, ⟨1, _⟩ => ⟨S1x512x64, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S64x2048, .f32⟩
  | .local _ .vmem, ⟨7, _⟩ => ⟨S512x2048, .f32⟩
  | .local _ .vmem, ⟨8, _⟩ => ⟨S512x2048, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | _, _ => ⟨S64x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S64x512_S64x512_S64x512_S64x512_S64x2048_d1 : Shape.Concatenates [S64x512, S64x512, S64x512, S64x512] S64x2048 1
  concatenates_S512x512_S512x512_S512x512_S512x512_S512x2048_d1 : Shape.Concatenates [S512x512, S512x512, S512x512, S512x512] S512x2048 1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  shapeCasts_S512x512_S1x512x512 : S512x512.ShapeCasts S1x512x512
  dot_S512x64_S64x2048_S512x2048_1_0_0_1_n_n_wf : DotDims.WF S512x64 S64x2048 S512x2048 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x512x64.size a
  hwx0_0 : ∀ i : grid0.Coords, EltTy.bits .f32 = 32 ∨ (Rect.block (s := S64x512x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .f32 = 32 ∨ (Rect.block (s := S64x512x512) S1x512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .f32 = 32 ∨ (Rect.block (s := S64x2048) S64x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .f32 = 32 ∨ (Rect.block (s := S512x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S64x512x512.size a
  hwx0_6 : ∀ i : grid0.Coords, EltTy.bits .f32 = 32 ∨ (Rect.block (s := S64x512x512) S1x512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x512.size a ≤ S64x512x512.size a
  hwx0_7 : ∀ i : grid0.Coords, EltTy.bits .f32 = 32 ∨ (Rect.block (s := S64x512x512) S1x512x512.size (cc0_transform_7 i) (hinb0_7 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1x512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1x512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x64 : Shape := ⟨3, ![64, 512, 64]⟩
abbrev S64x512x512 : Shape := ⟨3, ![64, 512, 512]⟩
abbrev S64x512 : Shape := ⟨2, ![64, 512]⟩
abbrev S512x512 : Shape := ⟨2, ![512, 512]⟩
abbrev S32768x64 : Shape := ⟨2, ![32768, 64]⟩
abbrev S32768x512 : Shape := ⟨2, ![32768, 512]⟩
abbrev S64x2048 : Shape := ⟨2, ![64, 2048]⟩
abbrev S512x2048 : Shape := ⟨2, ![512, 2048]⟩
abbrev S32768x2048 : Shape := ⟨2, ![32768, 2048]⟩
abbrev S64x512x4x512 : Shape := ⟨4, ![64, 512, 4, 512]⟩
abbrev S64x512x1x512 : Shape := ⟨4, ![64, 512, 1, 512]⟩
abbrev S1x512x512 : Shape := ⟨3, ![1, 512, 512]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S64x512x64, .f32⟩
  | .hbm, ⟨1, _⟩ => ⟨S64x512x512, .f32⟩
  | .hbm, ⟨2, _⟩ => ⟨S64x512x512, .f32⟩
  | .hbm, ⟨3, _⟩ => ⟨S64x512, .f32⟩
  | .hbm, ⟨4, _⟩ => ⟨S512x512, .f32⟩
  | .hbm, ⟨5, _⟩ => ⟨S512x512, .f32⟩
  | .hbm, ⟨6, _⟩ => ⟨S64x512, .f32⟩
  | .hbm, ⟨7, _⟩ => ⟨S512x512, .f32⟩
  | .hbm, ⟨8, _⟩ => ⟨S512x512, .f32⟩
  | .hbm, ⟨9, _⟩ => ⟨S64x512, .f32⟩
  | .hbm, ⟨10, _⟩ => ⟨S512x512, .f32⟩
  | .hbm, ⟨11, _⟩ => ⟨S512x512, .f32⟩
  | .hbm, ⟨12, _⟩ => ⟨S64x512, .f32⟩
  | .hbm, ⟨13, _⟩ => ⟨S512x512, .f32⟩
  | .hbm, ⟨14, _⟩ => ⟨S512x512, .f32⟩
  | .hbm, ⟨15, _⟩ => ⟨S32768x64, .f32⟩
  | .hbm, ⟨16, _⟩ => ⟨S32768x512, .f32⟩
  | .hbm, ⟨17, _⟩ => ⟨S64x2048, .f32⟩
  | .hbm, ⟨18, _⟩ => ⟨S512x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S64x512x4x512, .f32⟩
  | .hbm, ⟨23, _⟩ => ⟨S64x512x1x512, .f32⟩
  | .hbm, ⟨24, _⟩ => ⟨S64x512x512, .f32⟩
  | .hbm, ⟨25, _⟩ => ⟨S1x512x512, .f32⟩
  | .hbm, ⟨26, _⟩ => ⟨S64x512x512, .f32⟩
  | .hbm, ⟨27, _⟩ => ⟨S64x512x512, .f32⟩
  | .hbm, ⟨28, _⟩ => ⟨S64x512x1x512, .f32⟩
  | .hbm, ⟨29, _⟩ => ⟨S64x512x512, .f32⟩
  | .hbm, ⟨30, _⟩ => ⟨S1x512x512, .f32⟩
  | .hbm, ⟨31, _⟩ => ⟨S64x512x512, .f32⟩
  | .hbm, ⟨32, _⟩ => ⟨S64x512x512, .f32⟩
  | .hbm, ⟨33, _⟩ => ⟨S64x512x1x512, .f32⟩
  | .hbm, ⟨34, _⟩ => ⟨S64x512x512, .f32⟩
  | .hbm, ⟨35, _⟩ => ⟨S1x512x512, .f32⟩
  | .hbm, ⟨36, _⟩ => ⟨S64x512x512, .f32⟩
  | .hbm, ⟨37, _⟩ => ⟨S64x512x512, .f32⟩
  | .hbm, ⟨38, _⟩ => ⟨S64x512x1x512, .f32⟩
  | .hbm, ⟨39, _⟩ => ⟨S64x512x512, .f32⟩
  | .hbm, ⟨40, _⟩ => ⟨S1x512x512, .f32⟩
  | .hbm, ⟨41, _⟩ => ⟨S64x512x512, .f32⟩
  | .hbm, ⟨42, _⟩ => ⟨S64x512x512, .f32⟩
  | .hbm, ⟨43, _⟩ => ⟨S64x512x512, .f32⟩
  | .hbm, ⟨44, _⟩ => ⟨S64x512x512, .f32⟩
  | .hbm, ⟨45, _⟩ => ⟨S_, .f32⟩
  | .hbm, ⟨46, _⟩ => ⟨S64x512x512, .f32⟩
  | .hbm, ⟨47, _⟩ => ⟨S64x512x512, .f32⟩
  | .hbm, ⟨48, _⟩ => ⟨S_, .f32⟩
  | .hbm, ⟨49, _⟩ => ⟨S64x512x512, .f32⟩
  | .hbm, ⟨50, _⟩ => ⟨S64x512x512, .f32⟩
  | .hbm, ⟨51, _⟩ => ⟨S64x512x512, .f32⟩
  | .hbm, ⟨52, _⟩ => ⟨S64x512x512, .f32⟩
  | .hbm, ⟨53, _⟩ => ⟨S_, .f32⟩
  | .hbm, ⟨54, _⟩ => ⟨S64x512x512, .f32⟩
  | .hbm, ⟨55, _⟩ => ⟨S64x512x512, .f32⟩
  | .hbm, ⟨56, _⟩ => ⟨S_, .f32⟩
  | .hbm, ⟨57, _⟩ => ⟨S64x512x512, .f32⟩
  | .hbm, ⟨58, _⟩ => ⟨S64x512x512, .f32⟩
  | .hbm, ⟨59, _⟩ => ⟨S64x512x512, .f32⟩
  | .hbm, ⟨60, _⟩ => ⟨S64x512x512, .f32⟩
  | .hbm, ⟨61, _⟩ => ⟨S_, .f32⟩
  | .hbm, ⟨62, _⟩ => ⟨S64x512x512, .f32⟩
  | .hbm, ⟨63, _⟩ => ⟨S64x512x512, .f32⟩
  | .hbm, ⟨64, _⟩ => ⟨S_, .f32⟩
  | .hbm, ⟨65, _⟩ => ⟨S64x512x512, .f32⟩
  | .hbm, ⟨66, _⟩ => ⟨S64x512x512, .f32⟩
  | .hbm, ⟨67, _⟩ => ⟨S64x512x512, .f32⟩
  | .hbm, ⟨68, _⟩ => ⟨S64x512x512, .f32⟩
  | .hbm, ⟨69, _⟩ => ⟨S64x512x512, .f32⟩
  | .hbm, ⟨70, _⟩ => ⟨S64x512x512, .f32⟩
  | .hbm, ⟨71, _⟩ => ⟨S64x512x512, .f32⟩
  | .hbm, ⟨72, _⟩ => ⟨S64x512x512, .f32⟩
  | _, _ => ⟨S64x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_cst_0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_1 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  shapeCasts_S64x512x64_S32768x64 : S64x512x64.ShapeCasts S32768x64
  shapeCasts_S64x512x512_S32768x512 : S64x512x512.ShapeCasts S32768x512
  concatenates_S64x512_S64x512_S64x512_S64x512_S64x2048_d1 : Shape.Concatenates [S64x512, S64x512, S64x512, S64x512] S64x2048 1
  concatenates_S512x512_S512x512_S512x512_S512x512_S512x2048_d1 : Shape.Concatenates [S512x512, S512x512, S512x512, S512x512] S512x2048 1
  shapeCasts_S32768x2048_S64x512x4x512 : S32768x2048.ShapeCasts S64x512x4x512
  slices_S64x512x4x512_S64x512x1x512_0_0_0_0 : S64x512x4x512.Slices ![0, 0, 0, 0] S64x512x1x512
  shapeCasts_S64x512x1x512_S64x512x512 : S64x512x1x512.ShapeCasts S64x512x512
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  slices_S64x512x4x512_S64x512x1x512_0_0_1_0 : S64x512x4x512.Slices ![0, 0, 1, 0] S64x512x1x512
  slices_S64x512x4x512_S64x512x1x512_0_0_2_0 : S64x512x4x512.Slices ![0, 0, 2, 0] S64x512x1x512
  slices_S64x512x4x512_S64x512x1x512_0_0_3_0 : S64x512x4x512.Slices ![0, 0, 3, 0] S64x512x1x512
  bcast_S_S64x512x512 : S_.BroadcastsInDim S64x512x512 (![] : Fin 0 → Fin S64x512x512.rank)
  dot_S32768x64_S64x2048_S32768x2048_1_0_0_1_n_n_wf : DotDims.WF S32768x64 S64x2048 S32768x2048 [1] [0] [0] [1] [] []
  dot_S32768x512_S512x2048_S32768x2048_1_0_0_1_n_n_wf : DotDims.WF S32768x512 S512x2048 S32768x2048 [1] [0] [0] [1] [] []

variable [Facts₀]

def dot_S32768x64_S64x2048_S32768x2048_1_0_0_1_n_n : DotDims S32768x64 S64x2048 S32768x2048 where
  lhsContracting := [1]
  rhsContracting := [0]
  lhsNonContracting := [0]
  rhsNonContracting := [1]
  lhsBatch := []
  rhsBatch := []
  wf := dot_S32768x64_S64x2048_S32768x2048_1_0_0_1_n_n_wf
def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf

class Facts : Prop extends Facts₀ where

variable [Facts]
-- ==== Proof.KernelFrame.lean ====
/-
  The run of `Kernel`'s @main, at any float instance: three host concatenations (the four gates' input weights, recurrent
  weights and biases laid side by side along the column axis), then ONE pipelined region over the 64 batch entries.

  At batch entry t the region stages rows t of the input, of the hidden state and of the cell state, and — once, at the
  first entry — the three concatenated arrays whole; the body loads all six, computes, and overwrites the staged block of
  the next hidden state and of the next cell state, each written back to row t of its result array. The body keeps
  nothing between entries: what it leaves in an output block is a function of the six input blocks alone
  (`nextHiddenBlock`, `nextCellBlock`), so the region's proof data name every array after the run, and the argument
  arrays — no window writes one — end as they began (`frame`).
-/
import proofs.«146787_j18708877541467_1_alg».proof.Proof.Gen.Kernel.Launch
import proofs.«146787_j18708877541467_1_alg».proof.Proof.Gen.Kernel.Skeleton
import proofs.«146787_j18708877541467_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three concatenations. -/
abbrev V (c : Dev nD) (b : Ref sig .tc) : Buf (Elt F) ((c : Thread nD τ).loc b) :=
  StableHlo.after hostOps0 (fun b => m (c, b)) b

/-- A concatenation allocates nothing. -/
theorem hostOps0_fresh : (hostOps0 : List (HloOp τ sig (Elt F))).Forall fun op => op.fresh = ∅ := by
  simp only [List.Forall]; repeat' constructor

/-- @main is the three concatenations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenations write only their three results: every other buffer reaches the region as launched. -/
theorem V_unwritten (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact ⟨StableHlo.devRef_ne_of_ne h0, StableHlo.devRef_ne_of_ne h1, StableHlo.devRef_ne_of_ne h2⟩))

/-! ## The windows' blocks -/

/-- Window `w`'s block at batch entry `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Before
variable {c : Dev nD} (dat : Dat τ (Elt F) Unit ℕ (UR sig nD τ) ℕ cfg0 c)

/-- An input window's current staging buffer holds its block at every entry, fetched there or not: where it is not
    fetched its block index has not moved. One statement per input window. -/
theorem before0_of (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Before

/-! ## The body's accesses: each load and each store covers its whole staging buffer -/

abbrev rX : Rect S1x512x64 := Rect.unit (s := S1x512x64) ![0, 0, 0] S1x512x64.size inb_S1x512x64_S1x512x64_0_0_0
abbrev rS : Rect S1x512x512 := Rect.unit (s := S1x512x512) ![0, 0, 0] S1x512x512.size inb_S1x512x512_S1x512x512_0_0_0
abbrev rW : Rect S64x2048 := Rect.unit (s := S64x2048) ![0, 0] S64x2048.size inb_S64x2048_S64x2048_0_0
abbrev rU : Rect S512x2048 := Rect.unit (s := S512x2048) ![0, 0] S512x2048.size inb_S512x2048_S512x2048_0_0

/-! ## What the body leaves in each output block -/

/-- The next cell state's block (window 7) after the body, from the six input blocks: its one store, of the
    skeleton's payload for `f·c + i·g`. -/
def nextCellBlock (x0 : Vec F S1x512x64 .f32) (x1 : Vec F S1x512x512 .f32) (x2 : Vec F S1x512x512 .f32)
    (x3 : Vec F S64x2048 .f32) (x4 : Vec F S512x2048 .f32) (x5 : Vec F S512x2048 .f32) : Vec F S1x512x512 .f32 :=
  View.canon [⟨rS, k0_pay1 (k0_pay3 (View.ld x0 rX) (View.ld x1 rS) (View.ld x3 rW) (View.ld x4 rU) (View.ld x5 rU) (View.ld x2 rS))⟩]

/-- The next hidden state's block (window 6) after the body: its one store, of the skeleton's payload for
    `o·tanh(next cell)`. -/
def nextHiddenBlock (x0 : Vec F S1x512x64 .f32) (x1 : Vec F S1x512x512 .f32) (x2 : Vec F S1x512x512 .f32)
    (x3 : Vec F S64x2048 .f32) (x4 : Vec F S512x2048 .f32) (x5 : Vec F S512x2048 .f32) : Vec F S1x512x512 .f32 :=
  View.canon [⟨rS, k0_pay4 (View.ld x0 rX) (View.ld x1 rS) (View.ld x3 rW) (View.ld x4 rU) (View.ld x5 rU) (View.ld x2 rS)⟩]

/-- One store through the whole-buffer rectangle covers the block. -/
theorem cover_state (p0 : Vec F S1x512x512 .f32) (y : S1x512x512.Idx) :
    ∃ pc ∈ ([⟨rS, p0⟩] : List (View.Piece (Elt F) S1x512x512 .f32)), y ∈ pc.1.set :=
  View.cover_of_tiled [⟨rS, p0⟩] S1x512x512.size (by rfl) y

/-! ## The body's triple -/

set_option maxHeartbeats 4000000 in
/-- The body on whole staging memrefs, the six inputs' at read contents `x0 … x5` and the two outputs' at anything,
    runs to a continuation that holds the inputs' as they were and the outputs' at `nextHiddenBlock` and
    `nextCellBlock` of the inputs. (The body also loads each output buffer before storing into it; the loaded
    value is never used.) -/
theorem sound_kernel (c : Dev nD) (E : Set ℕ) (i : grid0.Coords)
    (arg1 : Memref sig .tc .vmem S1x512x64 .f32) (harg1 : arg1.IsWhole) (arg2 : Memref sig .tc .vmem S1x512x512 .f32) (harg2 : arg2.IsWhole)
    (arg3 : Memref sig .tc .vmem S1x512x512 .f32) (harg3 : arg3.IsWhole) (arg4 : Memref sig .tc .vmem S64x2048 .f32) (harg4 : arg4.IsWhole)
    (arg5 : Memref sig .tc .vmem S512x2048 .f32) (harg5 : arg5.IsWhole) (arg6 : Memref sig .tc .vmem S512x2048 .f32) (harg6 : arg6.IsWhole)
    (arg7 : Memref sig .tc .vmem S1x512x512 .f32) (harg7 : arg7.IsWhole) (arg8 : Memref sig .tc .vmem S1x512x512 .f32) (harg8 : arg8.IsWhole)
    (x0 : Vec F S1x512x64 .f32) (x1 : Vec F S1x512x512 .f32) (x2 : Vec F S1x512x512 .f32)
    (x3 : Vec F S64x2048 .f32) (x4 : Vec F S512x2048 .f32) (x5 : Vec F S512x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (nextHiddenBlock x0 x1 x2 x3 x4 x5)
            ∗ owns (c : Thread nD τ) arg8 fullShare (nextCellBlock x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_state _)
  iexists _; isplitr
  swap; · iexact H7
  ipureintro
  try dsimp only
  exact View.read_writes_eq_canon _ _ _ (cover_state _)

/-! ## The region's proof data -/

/-- On core `c`: the arrays as the region finds them; after the body at entry `t` each input's buffer at its block,
    the hidden-state output's at `nextHiddenBlock` and the cell-state output's at `nextCellBlock` of the input blocks;
    nothing of the kernel's own between entries; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => nextHiddenBlock (iblk m c 0 t) (iblk m c 1 t) (iblk m c 2 t) (iblk m c 3 t) (iblk m c 4 t) (iblk m c 5 t)
    | ⟨7, _⟩ => nextCellBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = nextHiddenBlock (iblk m c 0 t) (iblk m c 1 t) (iblk m c 2 t) (iblk m c 3 t) (iblk m c 4 t) (iblk m c 5 t) := by dsimp only [dats]
theorem after7 (c : Dev nD) (t : Fin cfg0.N) : (dats m 0 c).after 7 t
    = nextCellBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic entry -/

/-- What the body is called with at entry `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any entry: the inputs' staging buffers hold their blocks, so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every entry. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the region at what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged argument array (windows 0, 1, 2) ends as launched: the region only reads it. -/
theorem kept_staged {r : PUnit × MemSt nD τ sig (Elt F)} (h : Pipeline.FramePost cfgs (dats m) 0 (V m) r) (c : Dev nD)
    (w : Fin cfg0.W) (hw : (cfg0.win w).isOut = false) (h0 : Pipeline.arrRef spec0 w ≠ main_v0) (h1 : Pipeline.arrRef spec0 w ≠ main_v1)
    (h2 : Pipeline.arrRef spec0 w ≠ main_v2) :
    r.2.mem (((cfgs 0).spec w).arr.view.loc (c.tc : Thread nD τ)) = m ((c : Thread nD τ).loc (Pipeline.arrRef spec0 w)) :=
  ((h c).1 w).trans (((dats m 0 c).arrAt_in w hw _).trans ((A_eq m c w).trans (V_unwritten m c _ h0 h1 h2)))

/-- An argument array no window stages ends as launched: it bypasses the region. -/
theorem kept_rest {r : PUnit × MemSt nD τ sig (Elt F)} (h : Pipeline.FramePost cfgs (dats m) 0 (V m) r) (c : Dev nD)
    (b : Ref sig .tc) (hs : b.isScoped = false) (ha : ∀ w, (spec0 w).arr.view.ref ≠ b)
    (h0 : b ≠ main_v0) (h1 : b ≠ main_v1) (h2 : b ≠ main_v2) :
    r.2.mem ((c.tc : Thread nD τ).loc b) = m ((c : Thread nD τ).loc b) :=
  ((h c).2 b (Pipeline.mem_restRefs_of b hs ha)).trans (V_unwritten m c b h0 h1 h2)

/-- The fifteen argument arrays after the run. -/
theorem kept_args {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨kept_staged m h c 0 rfl (by decide) (by decide) (by decide),
   kept_staged m h c 1 rfl (by decide) (by decide) (by decide),
   kept_staged m h c 2 rfl (by decide) (by decide) (by decide),
   kept_rest m h c main_arg3 (by decide) (by decide) (by decide) (by decide) (by decide),
   kept_rest m h c main_arg4 (by decide) (by decide) (by decide) (by decide) (by decide),
   kept_rest m h c main_arg5 (by decide) (by decide) (by decide) (by decide) (by decide),
   kept_rest m h c main_arg6 (by decide) (by decide) (by decide) (by decide) (by decide),
   kept_rest m h c main_arg7 (by decide) (by decide) (by decide) (by decide) (by decide),
   kept_rest m h c main_arg8 (by decide) (by decide) (by decide) (by decide) (by decide),
   kept_rest m h c main_arg9 (by decide) (by decide) (by decide) (by decide) (by decide),
   kept_rest m h c main_arg10 (by decide) (by decide) (by decide) (by decide) (by decide),
   kept_rest m h c main_arg11 (by decide) (by decide) (by decide) (by decide) (by decide),
   kept_rest m h c main_arg12 (by decide) (by decide) (by decide) (by decide) (by decide),
   kept_rest m h c main_arg13 (by decide) (by decide) (by decide) (by decide) (by decide),
   kept_rest m h c main_arg14 (by decide) (by decide) (by decide) (by decide) (by decide)⟩

/-- The frame: @main runs to the end, faults nowhere, and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => kept_args m h c) (run_main m ρ)

end Cert.Kernel.Frm

end
-- ==== Proof.KernelIdealFrame.lean ====
/-
  The run of `KernelIdeal`'s @main, at any float instance: three host concatenations (the four gates' input weights, recurrent
  weights and biases laid side by side along the column axis), then ONE pipelined region over the 64 batch entries.

  At batch entry t the region stages rows t of the input, of the hidden state and of the cell state, and — once, at the
  first entry — the three concatenated arrays whole; the body loads all six, computes, and overwrites the staged block of
  the next hidden state and of the next cell state, each written back to row t of its result array. The body keeps
  nothing between entries: what it leaves in an output block is a function of the six input blocks alone
  (`nextHiddenBlock`, `nextCellBlock`), so the region's proof data name every array after the run, and the argument
  arrays — no window writes one — end as they began (`frame`).
-/
import proofs.«146787_j18708877541467_1_alg».proof.Proof.Gen.KernelIdeal.Launch
import proofs.«146787_j18708877541467_1_alg».proof.Proof.Gen.KernelIdeal.Skeleton
import proofs.«146787_j18708877541467_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the three concatenations. -/
abbrev V (c : Dev nD) (b : Ref sig .tc) : Buf (Elt F) ((c : Thread nD τ).loc b) :=
  StableHlo.after hostOps0 (fun b => m (c, b)) b

/-- A concatenation allocates nothing. -/
theorem hostOps0_fresh : (hostOps0 : List (HloOp τ sig (Elt F))).Forall fun op => op.fresh = ∅ := by
  simp only [List.Forall]; repeat' constructor

/-- @main is the three concatenations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenations write only their three results: every other buffer reaches the region as launched. -/
theorem V_unwritten (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.nary_writes, Finset.mem_singleton]
    exact ⟨StableHlo.devRef_ne_of_ne h0, StableHlo.devRef_ne_of_ne h1, StableHlo.devRef_ne_of_ne h2⟩))

/-! ## The windows' blocks -/

/-- Window `w`'s block at batch entry `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Before
variable {c : Dev nD} (dat : Dat τ (Elt F) Unit ℕ (UR sig nD τ) ℕ cfg0 c)

/-- An input window's current staging buffer holds its block at every entry, fetched there or not: where it is not
    fetched its block index has not moved. One statement per input window. -/
theorem before0_of (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Before

/-! ## The body's accesses: each load and each store covers its whole staging buffer -/

abbrev rX : Rect S1x512x64 := Rect.unit (s := S1x512x64) ![0, 0, 0] S1x512x64.size inb_S1x512x64_S1x512x64_0_0_0
abbrev rS : Rect S1x512x512 := Rect.unit (s := S1x512x512) ![0, 0, 0] S1x512x512.size inb_S1x512x512_S1x512x512_0_0_0
abbrev rW : Rect S64x2048 := Rect.unit (s := S64x2048) ![0, 0] S64x2048.size inb_S64x2048_S64x2048_0_0
abbrev rU : Rect S512x2048 := Rect.unit (s := S512x2048) ![0, 0] S512x2048.size inb_S512x2048_S512x2048_0_0

/-! ## What the body leaves in each output block -/

/-- The next cell state's block (window 7) after the body, from the six input blocks: its one store, of the
    skeleton's payload for `f·c + i·g`. -/
def nextCellBlock (x0 : Vec F S1x512x64 .f32) (x1 : Vec F S1x512x512 .f32) (x2 : Vec F S1x512x512 .f32)
    (x3 : Vec F S64x2048 .f32) (x4 : Vec F S512x2048 .f32) (x5 : Vec F S512x2048 .f32) : Vec F S1x512x512 .f32 :=
  View.canon [⟨rS, k0_pay1 (k0_pay3 (View.ld x0 rX) (View.ld x1 rS) (View.ld x3 rW) (View.ld x4 rU) (View.ld x5 rU) (View.ld x2 rS))⟩]

/-- The next hidden state's block (window 6) after the body: its one store, of the skeleton's payload for
    `o·tanh(next cell)`. -/
def nextHiddenBlock (x0 : Vec F S1x512x64 .f32) (x1 : Vec F S1x512x512 .f32) (x2 : Vec F S1x512x512 .f32)
    (x3 : Vec F S64x2048 .f32) (x4 : Vec F S512x2048 .f32) (x5 : Vec F S512x2048 .f32) : Vec F S1x512x512 .f32 :=
  View.canon [⟨rS, k0_pay4 (View.ld x0 rX) (View.ld x1 rS) (View.ld x3 rW) (View.ld x4 rU) (View.ld x5 rU) (View.ld x2 rS)⟩]

/-- One store through the whole-buffer rectangle covers the block. -/
theorem cover_state (p0 : Vec F S1x512x512 .f32) (y : S1x512x512.Idx) :
    ∃ pc ∈ ([⟨rS, p0⟩] : List (View.Piece (Elt F) S1x512x512 .f32)), y ∈ pc.1.set :=
  View.cover_of_tiled [⟨rS, p0⟩] S1x512x512.size (by rfl) y

/-! ## The body's triple -/

set_option maxHeartbeats 4000000 in
/-- The body on whole staging memrefs, the six inputs' at read contents `x0 … x5` and the two outputs' at anything,
    runs to a continuation that holds the inputs' as they were and the outputs' at `nextHiddenBlock` and
    `nextCellBlock` of the inputs. (The body also loads each output buffer before storing into it; the loaded
    value is never used.) -/
theorem sound_kernel (c : Dev nD) (E : Set ℕ) (i : grid0.Coords)
    (arg1 : Memref sig .tc .vmem S1x512x64 .f32) (harg1 : arg1.IsWhole) (arg2 : Memref sig .tc .vmem S1x512x512 .f32) (harg2 : arg2.IsWhole)
    (arg3 : Memref sig .tc .vmem S1x512x512 .f32) (harg3 : arg3.IsWhole) (arg4 : Memref sig .tc .vmem S64x2048 .f32) (harg4 : arg4.IsWhole)
    (arg5 : Memref sig .tc .vmem S512x2048 .f32) (harg5 : arg5.IsWhole) (arg6 : Memref sig .tc .vmem S512x2048 .f32) (harg6 : arg6.IsWhole)
    (arg7 : Memref sig .tc .vmem S1x512x512 .f32) (harg7 : arg7.IsWhole) (arg8 : Memref sig .tc .vmem S1x512x512 .f32) (harg8 : arg8.IsWhole)
    (x0 : Vec F S1x512x64 .f32) (x1 : Vec F S1x512x512 .f32) (x2 : Vec F S1x512x512 .f32)
    (x3 : Vec F S64x2048 .f32) (x4 : Vec F S512x2048 .f32) (x5 : Vec F S512x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (nextHiddenBlock x0 x1 x2 x3 x4 x5)
            ∗ owns (c : Thread nD τ) arg8 fullShare (nextCellBlock x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_state _)
  iexists _; isplitr
  swap; · iexact H7
  ipureintro
  try dsimp only
  exact View.read_writes_eq_canon _ _ _ (cover_state _)

/-! ## The region's proof data -/

/-- On core `c`: the arrays as the region finds them; after the body at entry `t` each input's buffer at its block,
    the hidden-state output's at `nextHiddenBlock` and the cell-state output's at `nextCellBlock` of the input blocks;
    nothing of the kernel's own between entries; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => nextHiddenBlock (iblk m c 0 t) (iblk m c 1 t) (iblk m c 2 t) (iblk m c 3 t) (iblk m c 4 t) (iblk m c 5 t)
    | ⟨7, _⟩ => nextCellBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = nextHiddenBlock (iblk m c 0 t) (iblk m c 1 t) (iblk m c 2 t) (iblk m c 3 t) (iblk m c 4 t) (iblk m c 5 t) := by dsimp only [dats]
theorem after7 (c : Dev nD) (t : Fin cfg0.N) : (dats m 0 c).after 7 t
    = nextCellBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic entry -/

/-- What the body is called with at entry `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any entry: the inputs' staging buffers hold their blocks, so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every entry. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the region at what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- A staged argument array (windows 0, 1, 2) ends as launched: the region only reads it. -/
theorem kept_staged {r : PUnit × MemSt nD τ sig (Elt F)} (h : Pipeline.FramePost cfgs (dats m) 0 (V m) r) (c : Dev nD)
    (w : Fin cfg0.W) (hw : (cfg0.win w).isOut = false) (h0 : Pipeline.arrRef spec0 w ≠ main_v0) (h1 : Pipeline.arrRef spec0 w ≠ main_v1)
    (h2 : Pipeline.arrRef spec0 w ≠ main_v2) :
    r.2.mem (((cfgs 0).spec w).arr.view.loc (c.tc : Thread nD τ)) = m ((c : Thread nD τ).loc (Pipeline.arrRef spec0 w)) :=
  ((h c).1 w).trans (((dats m 0 c).arrAt_in w hw _).trans ((A_eq m c w).trans (V_unwritten m c _ h0 h1 h2)))

/-- An argument array no window stages ends as launched: it bypasses the region. -/
theorem kept_rest {r : PUnit × MemSt nD τ sig (Elt F)} (h : Pipeline.FramePost cfgs (dats m) 0 (V m) r) (c : Dev nD)
    (b : Ref sig .tc) (hs : b.isScoped = false) (ha : ∀ w, (spec0 w).arr.view.ref ≠ b)
    (h0 : b ≠ main_v0) (h1 : b ≠ main_v1) (h2 : b ≠ main_v2) :
    r.2.mem ((c.tc : Thread nD τ).loc b) = m ((c : Thread nD τ).loc b) :=
  ((h c).2 b (Pipeline.mem_restRefs_of b hs ha)).trans (V_unwritten m c b h0 h1 h2)

/-- The fifteen argument arrays after the run. -/
theorem kept_args {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨kept_staged m h c 0 rfl (by decide) (by decide) (by decide),
   kept_staged m h c 1 rfl (by decide) (by decide) (by decide),
   kept_staged m h c 2 rfl (by decide) (by decide) (by decide),
   kept_rest m h c main_arg3 (by decide) (by decide) (by decide) (by decide) (by decide),
   kept_rest m h c main_arg4 (by decide) (by decide) (by decide) (by decide) (by decide),
   kept_rest m h c main_arg5 (by decide) (by decide) (by decide) (by decide) (by decide),
   kept_rest m h c main_arg6 (by decide) (by decide) (by decide) (by decide) (by decide),
   kept_rest m h c main_arg7 (by decide) (by decide) (by decide) (by decide) (by decide),
   kept_rest m h c main_arg8 (by decide) (by decide) (by decide) (by decide) (by decide),
   kept_rest m h c main_arg9 (by decide) (by decide) (by decide) (by decide) (by decide),
   kept_rest m h c main_arg10 (by decide) (by decide) (by decide) (by decide) (by decide),
   kept_rest m h c main_arg11 (by decide) (by decide) (by decide) (by decide) (by decide),
   kept_rest m h c main_arg12 (by decide) (by decide) (by decide) (by decide) (by decide),
   kept_rest m h c main_arg13 (by decide) (by decide) (by decide) (by decide) (by decide),
   kept_rest m h c main_arg14 (by decide) (by decide) (by decide) (by decide) (by decide)⟩

/-- The frame: @main runs to the end, faults nowhere, and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => kept_args m h c) (run_main m ρ)

end Cert.KernelIdeal.Frm

end
-- ==== Proof.Spec.lean ====
/-
  The LSTM cell step, as functions on the extended reals.

  For a batch entry b, a map unit m and a hidden unit n, gate g ∈ {0: input, 1: forget, 2: output, 3: candidate} has
  the pre-activation

      pre g (b, m, n) = (Σₐ x (b, m, a) · W (a, 512 g + n) + Σₖ h (b, m, k) · U (k, 512 g + n)) + bias_g (m, n),

  where W (64 × 2048) and U (512 × 2048) hold the four gates' weights side by side along the column axis. The next
  cell state is σ(pre 1) · c + σ(pre 0) · tanh(pre 3), the next hidden state σ(pre 2) · tanh(next cell), with σ the
  logistic function. Nothing here needs a finite input: the two programs compute these very expressions, sum for
  sum and product for product.

  Also here: a concatenation of four 512-column pieces along the column axis, read at column 512 g + n, is piece g
  at column n.
-/
import Idealize.ShloMosaic.PureOps.Ideal
import Idealize.ShloMosaic.Lib.ValueIdx
import Idealize.ShloMosaic.Lib.Pipeline.Value

noncomputable section

open scoped BigOperators

namespace Cert.Lstm
open Idealize.ShloMosaic Idealize.ShloMosaic.ValueIdx

/-- Column 512 g + n of a four-gate array. -/
abbrev col (g : Fin 4) (n : Fin 512) : Fin 2048 := ⟨g.val * 512 + n.val, by omega⟩

section Step
variable (x : FVec Ideal ⟨3, ![64, 512, 64]⟩ .f32) (h c : FVec Ideal ⟨3, ![64, 512, 512]⟩ .f32)
  (W : FVec Ideal ⟨2, ![64, 2048]⟩ .f32) (U : FVec Ideal ⟨2, ![512, 2048]⟩ .f32)

/-- Gate g's pre-activation at (b, m, n), with that gate's bias array `β`. -/
def preGate (g : Fin 4) (β : FVec Ideal ⟨2, ![512, 512]⟩ .f32) (b : Fin 64) (m n : Fin 512) : Ideal .f32 :=
  ((∑ a : Fin 64, x (ix3 b m a) * W (ix2 a (col g n))) + ∑ k : Fin 512, h (ix3 b m k) * U (ix2 k (col g n))) + β (ix2 m n)

variable (βi βf βo βg : FVec Ideal ⟨2, ![512, 512]⟩ .f32)

/-- The next cell state at (b, m, n). -/
def cellNext (b : Fin 64) (m n : Fin 512) : Ideal .f32 :=
  Ideal.logistic (preGate x h W U 1 βf b m n) * c (ix3 b m n)
    + Ideal.logistic (preGate x h W U 0 βi b m n) * Ideal.tanh (preGate x h W U 3 βg b m n)

/-- The next hidden state at (b, m, n). -/
def hiddenNext (b : Fin 64) (m n : Fin 512) : Ideal .f32 :=
  Ideal.logistic (preGate x h W U 2 βo b m n) * Ideal.tanh (cellNext x h c W U βi βf βg b m n)

/-- The next cell state as an array. -/
def cellArr : FVec Ideal ⟨3, ![64, 512, 512]⟩ .f32 := fun j => cellNext x h c W U βi βf βg (j 0) (j 1) (j 2)

/-- The next hidden state as an array. -/
def hiddenArr : FVec Ideal ⟨3, ![64, 512, 512]⟩ .f32 := fun j => hiddenNext x h c W U βi βf βo βg (j 0) (j 1) (j 2)

end Step

/-- The four gates' input weights (64 × 512 each) side by side along the column axis. -/
def inputCols (p0 p1 p2 p3 : FVec Ideal ⟨2, ![64, 512]⟩ .f32) : FVec Ideal ⟨2, ![64, 2048]⟩ .f32 :=
  concatenate ⟨2, ![64, 2048]⟩ 1 [⟨⟨2, ![64, 512]⟩, p0⟩, ⟨⟨2, ![64, 512]⟩, p1⟩, ⟨⟨2, ![64, 512]⟩, p2⟩, ⟨⟨2, ![64, 512]⟩, p3⟩]
    (show Shape.Concatenates [⟨2, ![64, 512]⟩, ⟨2, ![64, 512]⟩, ⟨2, ![64, 512]⟩, ⟨2, ![64, 512]⟩] ⟨2, ![64, 2048]⟩ 1 from by decide)

/-- Four 512 × 512 arrays (the gates' recurrent weights; their biases) side by side along the column axis. -/
def squareCols (p0 p1 p2 p3 : FVec Ideal ⟨2, ![512, 512]⟩ .f32) : FVec Ideal ⟨2, ![512, 2048]⟩ .f32 :=
  concatenate ⟨2, ![512, 2048]⟩ 1 [⟨⟨2, ![512, 512]⟩, p0⟩, ⟨⟨2, ![512, 512]⟩, p1⟩, ⟨⟨2, ![512, 512]⟩, p2⟩, ⟨⟨2, ![512, 512]⟩, p3⟩]
    (show Shape.Concatenates [⟨2, ![512, 512]⟩, ⟨2, ![512, 512]⟩, ⟨2, ![512, 512]⟩, ⟨2, ![512, 512]⟩] ⟨2, ![512, 2048]⟩ 1 from by decide)

/-- The next hidden state, as a function of the fifteen arguments in the programs' order. -/
def hiddenOf (x : FVec Ideal ⟨3, ![64, 512, 64]⟩ .f32) (h c : FVec Ideal ⟨3, ![64, 512, 512]⟩ .f32)
    (w_i : FVec Ideal ⟨2, ![64, 512]⟩ .f32) (u_i b_i : FVec Ideal ⟨2, ![512, 512]⟩ .f32)
    (w_f : FVec Ideal ⟨2, ![64, 512]⟩ .f32) (u_f b_f : FVec Ideal ⟨2, ![512, 512]⟩ .f32)
    (w_o : FVec Ideal ⟨2, ![64, 512]⟩ .f32) (u_o b_o : FVec Ideal ⟨2, ![512, 512]⟩ .f32)
    (w_g : FVec Ideal ⟨2, ![64, 512]⟩ .f32) (u_g b_g : FVec Ideal ⟨2, ![512, 512]⟩ .f32) :
    FVec Ideal ⟨3, ![64, 512, 512]⟩ .f32 :=
  hiddenArr x h c (inputCols w_i w_f w_o w_g) (squareCols u_i u_f u_o u_g) b_i b_f b_o b_g

/-- The next cell state, as a function of the fifteen arguments in the programs' order (the output gate's bias
    does not enter it). -/
def cellOf (x : FVec Ideal ⟨3, ![64, 512, 64]⟩ .f32) (h c : FVec Ideal ⟨3, ![64, 512, 512]⟩ .f32)
    (w_i : FVec Ideal ⟨2, ![64, 512]⟩ .f32) (u_i b_i : FVec Ideal ⟨2, ![512, 512]⟩ .f32)
    (w_f : FVec Ideal ⟨2, ![64, 512]⟩ .f32) (u_f b_f : FVec Ideal ⟨2, ![512, 512]⟩ .f32)
    (w_o : FVec Ideal ⟨2, ![64, 512]⟩ .f32) (u_o _b_o : FVec Ideal ⟨2, ![512, 512]⟩ .f32)
    (w_g : FVec Ideal ⟨2, ![64, 512]⟩ .f32) (u_g b_g : FVec Ideal ⟨2, ![512, 512]⟩ .f32) :
    FVec Ideal ⟨3, ![64, 512, 512]⟩ .f32 :=
  cellArr x h c (inputCols w_i w_f w_o w_g) (squareCols u_i u_f u_o u_g) b_i b_f b_g

/-- Four pieces of 512 columns laid side by side, read at column 512 g + n: piece g at column n. -/
theorem concat4_col {α : Type} {R : Nat} (p : Fin 4 → ((⟨2, ![R, 512]⟩ : Shape).Idx → α))
    (hc : Shape.Concatenates (([⟨⟨2, ![R, 512]⟩, p 0⟩, ⟨⟨2, ![R, 512]⟩, p 1⟩, ⟨⟨2, ![R, 512]⟩, p 2⟩, ⟨⟨2, ![R, 512]⟩, p 3⟩] :
      List ((s : Shape) × (s.Idx → α))).map (·.1)) ⟨2, ![R, 2048]⟩ 1)
    (g : Fin 4) (r : Fin R) (n : Fin 512) :
    concatenate ⟨2, ![R, 2048]⟩ 1 [⟨⟨2, ![R, 512]⟩, p 0⟩, ⟨⟨2, ![R, 512]⟩, p 1⟩, ⟨⟨2, ![R, 512]⟩, p 2⟩, ⟨⟨2, ![R, 512]⟩, p 3⟩] hc
      (ix2 r (col g n)) = p g (ix2 r n) := by
  have key : ∀ (k : Nat) (hk : k < 4), g.val = k →
      concatenate ⟨2, ![R, 2048]⟩ 1 [⟨⟨2, ![R, 512]⟩, p 0⟩, ⟨⟨2, ![R, 512]⟩, p 1⟩, ⟨⟨2, ![R, 512]⟩, p 2⟩, ⟨⟨2, ![R, 512]⟩, p 3⟩] hc
        (ix2 r (col g n)) = p ⟨k, hk⟩ (ix2 r n) := by
    intro k hk hg
    refine concatenate_apply_piece (1 : Fin 2) _ hc (ix2 r (col g n)) k (by simpa using hk) ⟨2, ![R, 512]⟩ (p ⟨k, hk⟩) ?_ rfl
      (k * 512) ?_ (ix2 r n) ?_ ?_
    · match k, hk with
      | 0, _ => rfl
      | 1, _ => rfl
      | 2, _ => rfl
      | 3, _ => rfl
    · match k, hk with
      | 0, _ => rfl
      | 1, _ => rfl
      | 2, _ => rfl
      | 3, _ => rfl
    · intro b hb
      match b with
      | ⟨0, _⟩ => rfl
      | ⟨1, _⟩ => exact absurd rfl hb
    · show k * 512 + n.val = g.val * 512 + n.val
      rw [hg]
  have := key g.val g.isLt rfl
  simpa using this

end Cert.Lstm

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.KernelPayload.lean ====
/-
  The kernel body's arithmetic, read at an index, at the extended reals.

  From the six staged blocks — x0 (one batch entry's input rows, 1 × 512 × 64), x1 and x2 (its hidden and cell
  state, 1 × 512 × 512), x3 and x4 (the four gates' input and recurrent weights side by side, 64 × 2048 and
  512 × 2048) and x5 (their biases side by side, 512 × 2048) — the body forms the 512 × 2048 array of all four
  pre-activations, (x0 · x3 + x1 · x4) + x5 (changes of float format are the identity here, and a matrix product
  into the zero accumulator is the plain sum of products), cuts it into the four gates' 512-column slices, and
  combines them pointwise. At (p, q) this is the specification's cell step with the block's rows for the batch
  entry's.
-/
import proofs.«146787_j18708877541467_1_alg».proof.Proof.Gen.KernelIdeal.Skeleton
import proofs.«146787_j18708877541467_1_alg».proof.Proof.Spec
import proofs.«146787_j18708877541467_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx Idealize.ShloMosaic.PlainDot Cert.Lstm

/-! ## Layout steps -/

/-- Dropping the leading unit axis of a 1 × 512 × 64 block. -/
theorem rows64 (v : Vec Ideal S1x512x64 .f32) (p : Fin 512) (a : Fin 64) :
    shapeCast S512x64 v shapeCasts_S1x512x64_S512x64 (ix2 p a) = v (ix3 0 p a) :=
  shapeCast_apply v shapeCasts_S1x512x64_S512x64 (ix2 p a) (ix3 0 p a)
    (by rewrite [Shape.rowMajor_val_three, Shape.rowMajor_val_two]; show ((0 : ℕ) * 512 + p.val) * 64 + a.val = p.val * 64 + a.val; omega)

/-- Dropping the leading unit axis of a 1 × 512 × 512 block. -/
theorem rows512 (v : Vec Ideal S1x512x512 .f32) (p q : Fin 512) :
    shapeCast S512x512 v shapeCasts_S1x512x512_S512x512 (ix2 p q) = v (ix3 0 p q) :=
  shapeCast_apply v shapeCasts_S1x512x512_S512x512 (ix2 p q) (ix3 0 p q)
    (by rewrite [Shape.rowMajor_val_three, Shape.rowMajor_val_two]; show ((0 : ℕ) * 512 + p.val) * 512 + q.val = p.val * 512 + q.val; omega)

/-- Putting the leading unit axis back on a 512 × 512 array. -/
theorem block512 (v : FVec Ideal S512x512 .f32) (p q : Fin 512) :
    shapeCast S1x512x512 v shapeCasts_S512x512_S1x512x512 (ix3 0 p q) = v (ix2 p q) :=
  shapeCast_apply v shapeCasts_S512x512_S1x512x512 (ix3 0 p q) (ix2 p q)
    (by rewrite [Shape.rowMajor_val_two, Shape.rowMajor_val_three]; show p.val * 512 + q.val = ((0 : ℕ) * 512 + p.val) * 512 + q.val; omega)

/-- Gate g's 512-column slice of a 512 × 2048 array, at (p, q), is the array at column 512 g + q. -/
theorem gateSlice (g : Fin 4) (v : FVec Ideal S512x2048 .f32) (hs : S512x2048.Slices ![0, g.val * 512] S512x512) (p q : Fin 512) :
    extractStridedSlice S512x512 ![0, g.val * 512] v hs (ix2 p q) = v (ix2 p (col g q)) :=
  extractStridedSlice_apply ![0, g.val * 512] v hs (ix2 p q) (ix2 p (col g q)) (fun a => match a with
    | ⟨0, _⟩ => by show p.val = 0 + p.val; omega
    | ⟨1, _⟩ => by show g.val * 512 + q.val = g.val * 512 + q.val; rfl)

/-! ## The two matrix products are plain -/

theorem plainX : IsPlain dot_S512x64_S64x2048_S512x2048_1_0_0_1_n_n := ⟨rfl, rfl, rfl, rfl, rfl, rfl⟩
theorem plainH : IsPlain dot_S512x512_S512x2048_S512x2048_1_0_0_1_n_n := ⟨rfl, rfl, rfl, rfl, rfl, rfl⟩

/-! ## The pre-activations -/

variable (x0 : Vec Ideal S1x512x64 .f32) (x1 x2 : Vec Ideal S1x512x512 .f32) (x3 : Vec Ideal S64x2048 .f32)
  (x4 x5 : Vec Ideal S512x2048 .f32)

/-- The 512 × 2048 array of pre-activations at (p, j): the two sums of products, plus the bias entry. -/
theorem preact_apply (p : Fin 512) (j : Fin 2048) :
    k0_pay2 x0 x1 x3 x4 x5 (ix2 p j)
      = ((∑ a : Fin 64, x0 (ix3 0 p a) * x3 (ix2 a j)) + ∑ k : Fin 512, x1 (ix3 0 p k) * x4 (ix2 k j)) + x5 (ix2 p j) := by
  unfold k0_pay2
  simp only [shapeCast_self]
  rw [addf_apply, addf_apply]
  refine congrArg₂ (· + ·) (congrArg₂ (· + ·) ?_ ?_) rfl
  · refine (matmul_zero_plain _ plainX none _ _ p j).trans (Finset.sum_congr rfl fun a _ => ?_)
    exact congrArg₂ (· * ·) (rows64 x0 p a) rfl
  · refine (matmul_zero_plain _ plainH none _ _ p j).trans (Finset.sum_congr rfl fun k _ => ?_)
    exact congrArg₂ (· * ·) (rows512 x1 p k) rfl

/-! ## The cell step on the staged blocks -/

section Step
variable (x : FVec Ideal ⟨3, ![64, 512, 64]⟩ .f32) (h c : FVec Ideal ⟨3, ![64, 512, 512]⟩ .f32)
  (W : FVec Ideal ⟨2, ![64, 2048]⟩ .f32) (U : FVec Ideal ⟨2, ![512, 2048]⟩ .f32)
  (βi βf βo βg : FVec Ideal ⟨2, ![512, 512]⟩ .f32) (b : Fin 64)
  (hx : ∀ p a, x0 (ix3 0 p a) = x (ix3 b p a)) (hh : ∀ p k, x1 (ix3 0 p k) = h (ix3 b p k))
  (hc : ∀ p q, x2 (ix3 0 p q) = c (ix3 b p q)) (hW : x3 = W) (hU : x4 = U) (hB : x5 = squareCols βi βf βo βg)

/-- The biases side by side, at column 512 g + q: gate g's bias at column q. -/
theorem bias_col (g : Fin 4) (p q : Fin 512) :
    squareCols βi βf βo βg (ix2 p (col g q)) = (![βi, βf, βo, βg] : Fin 4 → FVec Ideal ⟨2, ![512, 512]⟩ .f32) g (ix2 p q) :=
  concat4_col (R := 512) ![βi, βf, βo, βg] _ g p q

include hx hh hW hU hB in
/-- When the blocks are batch entry b's rows of x and h, and the whole weight and bias arrays, column 512 g + q of the
    pre-activations is gate g's pre-activation of the specification at (b, p, q). -/
theorem gate_of_blocks (g : Fin 4) (p q : Fin 512) :
    k0_pay2 x0 x1 x3 x4 x5 (ix2 p (col g q))
      = preGate x h W U g ((![βi, βf, βo, βg] : Fin 4 → FVec Ideal ⟨2, ![512, 512]⟩ .f32) g) b p q := by
  rw [preact_apply]
  unfold preGate
  subst hW hU hB
  rw [bias_col]
  simp only [hx, hh]

include hx hh hc hW hU hB in
/-- The value the body stores as the next cell state, at (p, q), is the specification's at (b, p, q). -/
theorem cell_of_blocks (p q : Fin 512) :
    k0_pay3 x0 x1 x3 x4 x5 x2 (ix2 p q) = cellNext x h c W U βi βf βg b p q := by
  unfold k0_pay3
  rw [addf_apply, mulf_apply, mulf_apply, rows512, hc]
  unfold cellNext
  have e0 := gate_of_blocks x0 x1 x3 x4 x5 x h W U βi βf βo βg b hx hh hW hU hB 0 p q
  have e1 := gate_of_blocks x0 x1 x3 x4 x5 x h W U βi βf βo βg b hx hh hW hU hB 1 p q
  have e3 := gate_of_blocks x0 x1 x3 x4 x5 x h W U βi βf βo βg b hx hh hW hU hB 3 p q
  refine congrArg₂ (· + ·) (congrArg₂ (· * ·) ?_ rfl) (congrArg₂ (· * ·) ?_ ?_)
  · exact congrArg Ideal.logistic ((gateSlice 1 _ _ p q).trans e1)
  · exact congrArg Ideal.logistic ((gateSlice 0 _ _ p q).trans e0)
  · exact congrArg Ideal.tanh ((gateSlice 3 _ _ p q).trans e3)

include hx hh hc hW hU hB in
/-- The block the body stores as the next cell state, at (0, p, q). -/
theorem cellBlock_apply (p q : Fin 512) :
    k0_pay1 (k0_pay3 x0 x1 x3 x4 x5 x2) (ix3 0 p q) = cellNext x h c W U βi βf βg b p q := by
  unfold k0_pay1
  exact (block512 _ p q).trans (cell_of_blocks x0 x1 x2 x3 x4 x5 x h c W U βi βf βo βg b hx hh hc hW hU hB p q)

include hx hh hc hW hU hB in
/-- The block the body stores as the next hidden state, at (0, p, q). -/
theorem hiddenBlock_apply (p q : Fin 512) :
    k0_pay4 x0 x1 x3 x4 x5 x2 (ix3 0 p q) = hiddenNext x h c W U βi βf βo βg b p q := by
  unfold k0_pay4
  refine (block512 _ p q).trans ?_
  rw [mulf_apply]
  unfold hiddenNext
  have e2 := gate_of_blocks x0 x1 x3 x4 x5 x h W U βi βf βo βg b hx hh hW hU hB 2 p q
  refine congrArg₂ (· * ·) ?_ ?_
  · exact congrArg Ideal.logistic ((gateSlice 2 _ _ p q).trans e2)
  · exact congrArg Ideal.tanh (cell_of_blocks x0 x1 x2 x3 x4 x5 x h c W U βi βf βo βg b hx hh hc hW hU hB p q)

end Step

end Cert.KernelIdeal.Pay

end
-- ==== Proof.KernelValue.lean ====
/-
  The idealized kernel's two result arrays after the run, at the extended reals: the LSTM cell step of the fifteen
  arguments.

  Batch entry t's blocks are rows t of the input, hidden-state and cell-state arrays (the three concatenations write
  none of them), and the three whole concatenated arrays, which are the specification's W, U and the biases side by
  side. So what entry t writes back to a result array is block t of the specification's array (the body's arithmetic
  read at an index); the 64 blocks tile the result (entry b covers row b), and the array after the run is the
  specification's, whole.
-/
import proofs.«146787_j18708877541467_1_alg».proof.Proof.KernelIdealFrame
import proofs.«146787_j18708877541467_1_alg».proof.Proof.KernelPayload
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Cert.KernelIdeal.Frm Cert.KernelIdeal.Pay
open Idealize.ShloMosaic Idealize.ShloMosaic.TcCoe Idealize.SL.Sem Idealize.ShloMosaic.ValueIdx Cert.Lstm
open Idealize.ShloMosaic.Pipeline (Dat)

variable (m : (ℓ : Loc nD τ sig) → Buf (Elt Ideal) ℓ) (ρ : Dev nD → PrngReg)

/-! ## The arrays the region finds -/

/-- The first concatenation's result: the gates' input weights side by side. -/
theorem V_inputCols (c : Dev nD) : (V m c main_v0 : S64x2048.Idx → Ideal .f32)
    = inputCols (m ((c : Thread nD τ).loc main_arg3)) (m ((c : Thread nD τ).loc main_arg6))
        (m ((c : Thread nD τ).loc main_arg9)) (m ((c : Thread nD τ).loc main_arg12)) := by
  dsimp only [V, hostOps0]; after_results; rfl

/-- The second: the gates' recurrent weights side by side. -/
theorem V_recurCols (c : Dev nD) : (V m c main_v1 : S512x2048.Idx → Ideal .f32)
    = squareCols (m ((c : Thread nD τ).loc main_arg4)) (m ((c : Thread nD τ).loc main_arg7))
        (m ((c : Thread nD τ).loc main_arg10)) (m ((c : Thread nD τ).loc main_arg13)) := by
  dsimp only [V, hostOps0]; after_results; rfl

/-- The third: the gates' biases side by side. -/
theorem V_biasCols (c : Dev nD) : (V m c main_v2 : S512x2048.Idx → Ideal .f32)
    = squareCols (m ((c : Thread nD τ).loc main_arg5)) (m ((c : Thread nD τ).loc main_arg8))
        (m ((c : Thread nD τ).loc main_arg11)) (m ((c : Thread nD τ).loc main_arg14)) := by
  dsimp only [V, hostOps0]; after_results; rfl

/-! ## The blocks -/

/-- The printed index maps, decided over the 64 batch entries: a per-entry window's block index is (t, 0, 0), a
    whole-array window's is (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- A batch entry as a row of the 64-row arrays. -/
abbrev row (t : Fin cfg0.N) : Fin 64 := ⟨t.val, t.isLt.trans_eq N_0⟩

/-- The six input blocks at entry t, each at its literal type. -/
abbrev xBlk (c : Dev nD) (t : Fin cfg0.N) : Vec Ideal S1x512x64 .f32 := iblk m c 0 t
abbrev hBlk (c : Dev nD) (t : Fin cfg0.N) : Vec Ideal S1x512x512 .f32 := iblk m c 1 t
abbrev cBlk (c : Dev nD) (t : Fin cfg0.N) : Vec Ideal S1x512x512 .f32 := iblk m c 2 t
abbrev wBlk (c : Dev nD) (t : Fin cfg0.N) : Vec Ideal S64x2048 .f32 := iblk m c 3 t
abbrev uBlk (c : Dev nD) (t : Fin cfg0.N) : Vec Ideal S512x2048 .f32 := iblk m c 4 t
abbrev bBlk (c : Dev nD) (t : Fin cfg0.N) : Vec Ideal S512x2048 .f32 := iblk m c 5 t

/-- Entry t's input block is row t of the input array. -/
theorem xBlk_apply (c : Dev nD) (t : Fin cfg0.N) (p : Fin 512) (a : Fin 64) :
    xBlk m c t (ix3 0 p a) = m ((c : Thread nD τ).loc main_arg0) (ix3 (row t) p a) := by
  obtain ⟨e0, e1, e2, -⟩ := idx_facts t
  show V m c main_arg0 (((cfg0.win 0).blk t).view.emb (ix3 0 p a)) = _
  rw [V_unwritten m c main_arg0 (by decide) (by decide) (by decide)]
  refine congrArg _ (funext fun d => Fin.ext ?_)
  match d with
  | ⟨0, _⟩ => show win0_0.index t (0 : Fin 3) * 1 + 1 * 0 = t.val; omega
  | ⟨1, _⟩ => show win0_0.index t (1 : Fin 3) * 512 + 1 * p.val = p.val; omega
  | ⟨2, _⟩ => show win0_0.index t (2 : Fin 3) * 64 + 1 * a.val = a.val; omega

/-- Entry t's hidden-state block is row t of the hidden-state array. -/
theorem hBlk_apply (c : Dev nD) (t : Fin cfg0.N) (p k : Fin 512) :
    hBlk m c t (ix3 0 p k) = m ((c : Thread nD τ).loc main_arg1) (ix3 (row t) p k) := by
  obtain ⟨-, -, -, e0, e1, e2, -⟩ := idx_facts t
  show V m c main_arg1 (((cfg0.win 1).blk t).view.emb (ix3 0 p k)) = _
  rw [V_unwritten m c main_arg1 (by decide) (by decide) (by decide)]
  refine congrArg _ (funext fun d => Fin.ext ?_)
  match d with
  | ⟨0, _⟩ => show win0_1.index t (0 : Fin 3) * 1 + 1 * 0 = t.val; omega
  | ⟨1, _⟩ => show win0_1.index t (1 : Fin 3) * 512 + 1 * p.val = p.val; omega
  | ⟨2, _⟩ => show win0_1.index t (2 : Fin 3) * 512 + 1 * k.val = k.val; omega

/-- Entry t's cell-state block is row t of the cell-state array. -/
theorem cBlk_apply (c : Dev nD) (t : Fin cfg0.N) (p q : Fin 512) :
    cBlk m c t (ix3 0 p q) = m ((c : Thread nD τ).loc main_arg2) (ix3 (row t) p q) := by
  obtain ⟨-, -, -, -, -, -, e0, e1, e2, -⟩ := idx_facts t
  show V m c main_arg2 (((cfg0.win 2).blk t).view.emb (ix3 0 p q)) = _
  rw [V_unwritten m c main_arg2 (by decide) (by decide) (by decide)]
  refine congrArg _ (funext fun d => Fin.ext ?_)
  match d with
  | ⟨0, _⟩ => show win0_2.index t (0 : Fin 3) * 1 + 1 * 0 = t.val; omega
  | ⟨1, _⟩ => show win0_2.index t (1 : Fin 3) * 512 + 1 * p.val = p.val; omega
  | ⟨2, _⟩ => show win0_2.index t (2 : Fin 3) * 512 + 1 * q.val = q.val; omega

/-- The staged input weights are the whole first concatenation. -/
theorem wBlk_eq (c : Dev nD) (t : Fin cfg0.N) : wBlk m c t
    = inputCols (m ((c : Thread nD τ).loc main_arg3)) (m ((c : Thread nD τ).loc main_arg6))
        (m ((c : Thread nD τ).loc main_arg9)) (m ((c : Thread nD τ).loc main_arg12)) := by
  obtain ⟨-, -, -, -, -, -, -, -, -, e0, e1, -⟩ := idx_facts t
  rw [← V_inputCols m c]
  funext y
  show V m c main_v0 (((cfg0.win 3).blk t).view.emb y) = V m c main_v0 y
  refine congrArg _ (funext fun d => Fin.ext ?_)
  match d with
  | ⟨0, _⟩ => show win0_3.index t (0 : Fin 2) * 64 + 1 * (y 0).val = (y 0).val; omega
  | ⟨1, _⟩ => show win0_3.index t (1 : Fin 2) * 2048 + 1 * (y 1).val = (y 1).val; omega

/-- The staged recurrent weights are the whole second concatenation. -/
theorem uBlk_eq (c : Dev nD) (t : Fin cfg0.N) : uBlk m c t
    = squareCols (m ((c : Thread nD τ).loc main_arg4)) (m ((c : Thread nD τ).loc main_arg7))
        (m ((c : Thread nD τ).loc main_arg10)) (m ((c : Thread nD τ).loc main_arg13)) := by
  obtain ⟨-, -, -, -, -, -, -, -, -, -, -, e0, e1, -⟩ := idx_facts t
  rw [← V_recurCols m c]
  funext y
  show V m c main_v1 (((cfg0.win 4).blk t).view.emb y) = V m c main_v1 y
  refine congrArg _ (funext fun d => Fin.ext ?_)
  match d with
  | ⟨0, _⟩ => show win0_4.index t (0 : Fin 2) * 512 + 1 * (y 0).val = (y 0).val; omega
  | ⟨1, _⟩ => show win0_4.index t (1 : Fin 2) * 2048 + 1 * (y 1).val = (y 1).val; omega

/-- The staged biases are the whole third concatenation. -/
theorem bBlk_eq (c : Dev nD) (t : Fin cfg0.N) : bBlk m c t
    = squareCols (m ((c : Thread nD τ).loc main_arg5)) (m ((c : Thread nD τ).loc main_arg8))
        (m ((c : Thread nD τ).loc main_arg11)) (m ((c : Thread nD τ).loc main_arg14)) := by
  obtain ⟨-, -, -, -, -, -, -, -, -, -, -, -, -, e0, e1, -⟩ := idx_facts t
  rw [← V_biasCols m c]
  funext y
  show V m c main_v2 (((cfg0.win 5).blk t).view.emb y) = V m c main_v2 y
  refine congrArg _ (funext fun d => Fin.ext ?_)
  match d with
  | ⟨0, _⟩ => show win0_5.index t (0 : Fin 2) * 512 + 1 * (y 0).val = (y 0).val; omega
  | ⟨1, _⟩ => show win0_5.index t (1 : Fin 2) * 2048 + 1 * (y 1).val = (y 1).val; omega

/-! ## The two result arrays -/

/-- The next hidden state of the fifteen arguments as launched. -/
abbrev hiddenOfArgs (c : Dev nD) : FVec Ideal ⟨3, ![64, 512, 512]⟩ .f32 :=
  hiddenOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- The next cell state of the fifteen arguments as launched. -/
abbrev cellOfArgs (c : Dev nD) : FVec Ideal ⟨3, ![64, 512, 512]⟩ .f32 :=
  cellOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

theorem hz3 : (![0, 0, 0] : Fin 3 → Nat) = fun _ => 0 := funext fun a => by fin_cases a <;> rfl
theorem hz2 : (![0, 0] : Fin 2 → Nat) = fun _ => 0 := funext fun a => by fin_cases a <;> rfl

/-- A block index of the state arrays has leading coordinate 0. -/
theorem eq_block_ix (y : S1x512x512.Idx) : y = ix3 0 (y 1) (y 2) := by
  funext d
  match d with
  | ⟨0, _⟩ => exact Fin.ext (by have h : (y 0).val < 1 := (y 0).isLt; show (y 0).val = 0; omega)
  | ⟨1, _⟩ => rfl
  | ⟨2, _⟩ => rfl

/-- What entry t writes back to the hidden-state result is block t of the specification's array. -/
theorem flushed_hidden (c : Dev nD) (t : Fin cfg0.N) :
    (dats m 0 c).flushed 6 t = ((cfg0.win 6).blk t).view.read (Elt Ideal) (hiddenOfArgs m c) := by
  obtain ⟨-, -, -, -, -, -, -, -, -, -, -, -, -, -, -, e0, e1, e2, -⟩ := idx_facts t
  show (cfg0.win 6).cut (grid0.coords t) ((dats m 0 c).after 6 t) = _
  rw [after6]
  unfold nextHiddenBlock
  rw [View.canon_unit_zero hz3]
  simp only [View.ld_unit_zero (S := S1x512x64) hz3, View.ld_unit_zero (S := S1x512x512) hz3,
    View.ld_unit_zero (S := S64x2048) hz2, View.ld_unit_zero (S := S512x2048) hz2]
  funext y
  rw [eq_block_ix y]
  show k0_pay4 (xBlk m c t) (hBlk m c t) (wBlk m c t) (uBlk m c t) (bBlk m c t) (cBlk m c t) (ix3 0 (y 1) (y 2))
    = hiddenOfArgs m c (((cfg0.win 6).blk t).view.emb (ix3 0 (y 1) (y 2)))
  have hemb : ((cfg0.win 6).blk t).view.emb (ix3 0 (y 1) (y 2)) = ix3 (row t) (y 1) (y 2) := by
    funext d; apply Fin.ext
    match d with
    | ⟨0, _⟩ => show win0_6.index t (0 : Fin 3) * 1 + 1 * 0 = t.val; omega
    | ⟨1, _⟩ => show win0_6.index t (1 : Fin 3) * 512 + 1 * (y 1).val = (y 1).val; omega
    | ⟨2, _⟩ => show win0_6.index t (2 : Fin 3) * 512 + 1 * (y 2).val = (y 2).val; omega
  rw [hemb]
  exact hiddenBlock_apply (xBlk m c t) (hBlk m c t) (cBlk m c t) (wBlk m c t) (uBlk m c t) (bBlk m c t)
    _ _ _ _ _ _ _ _ _ (row t) (xBlk_apply m c t) (hBlk_apply m c t) (cBlk_apply m c t) (wBlk_eq m c t) (uBlk_eq m c t) (bBlk_eq m c t)
    (y 1) (y 2)

/-- What entry t writes back to the cell-state result is block t of the specification's array. -/
theorem flushed_cell (c : Dev nD) (t : Fin cfg0.N) :
    (dats m 0 c).flushed 7 t = ((cfg0.win 7).blk t).view.read (Elt Ideal) (cellOfArgs m c) := by
  obtain ⟨-, -, -, -, -, -, -, -, -, -, -, -, -, -, -, -, -, -, e0, e1, e2⟩ := idx_facts t
  show (cfg0.win 7).cut (grid0.coords t) ((dats m 0 c).after 7 t) = _
  rw [after7]
  unfold nextCellBlock
  rw [View.canon_unit_zero hz3]
  simp only [View.ld_unit_zero (S := S1x512x64) hz3, View.ld_unit_zero (S := S1x512x512) hz3,
    View.ld_unit_zero (S := S64x2048) hz2, View.ld_unit_zero (S := S512x2048) hz2]
  funext y
  rw [eq_block_ix y]
  show k0_pay1 (k0_pay3 (xBlk m c t) (hBlk m c t) (wBlk m c t) (uBlk m c t) (bBlk m c t) (cBlk m c t)) (ix3 0 (y 1) (y 2))
    = cellOfArgs m c (((cfg0.win 7).blk t).view.emb (ix3 0 (y 1) (y 2)))
  have hemb : ((cfg0.win 7).blk t).view.emb (ix3 0 (y 1) (y 2)) = ix3 (row t) (y 1) (y 2) := by
    funext d; apply Fin.ext
    match d with
    | ⟨0, _⟩ => show win0_7.index t (0 : Fin 3) * 1 + 1 * 0 = t.val; omega
    | ⟨1, _⟩ => show win0_7.index t (1 : Fin 3) * 512 + 1 * (y 1).val = (y 1).val; omega
    | ⟨2, _⟩ => show win0_7.index t (2 : Fin 3) * 512 + 1 * (y 2).val = (y 2).val; omega
  rw [hemb]
  exact cellBlock_apply (xBlk m c t) (hBlk m c t) (cBlk m c t) (wBlk m c t) (uBlk m c t) (bBlk m c t)
    _ _ _ _ _ _ _ _ _ (row t) (xBlk_apply m c t) (hBlk_apply m c t) (cBlk_apply m c t) (wBlk_eq m c t) (uBlk_eq m c t) (bBlk_eq m c t)
    (y 1) (y 2)

/-- Row b of a state array lies in entry b's block of the hidden-state result. -/
theorem cover_hidden (i : S64x512x512.Idx) :
    ∃ t : Fin cfg0.N, (cfg0.win 6).flush t = true ∧ i ∈ ((cfg0.win 6).blk t).view.set := by
  have hi0 : (i 0).val < 64 := (i 0).isLt
  have hi1 : (i 1).val < 512 := (i 1).isLt
  have hi2 : (i 2).val < 512 := (i 2).isLt
  let t : Fin cfg0.N := ⟨(i 0).val, hi0.trans_eq N_0.symm⟩
  obtain ⟨-, -, -, -, -, -, -, -, -, -, -, -, -, -, -, e0, e1, e2, -⟩ := idx_facts t
  refine ⟨t, flush0_6 t, ?_⟩
  show i ∈ ((View.whole main_v3_0).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; rw [e0]; show (i 0).val * 1 ≤ (i 0).val ∧ (i 0).val < (i 0).val * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 512 ≤ (i 2).val ∧ (i 2).val < win0_6.index t (2 : Fin 3) * 512 + 512; omega

/-- The same for the cell-state result. -/
theorem cover_cell (i : S64x512x512.Idx) :
    ∃ t : Fin cfg0.N, (cfg0.win 7).flush t = true ∧ i ∈ ((cfg0.win 7).blk t).view.set := by
  have hi0 : (i 0).val < 64 := (i 0).isLt
  have hi1 : (i 1).val < 512 := (i 1).isLt
  have hi2 : (i 2).val < 512 := (i 2).isLt
  let t : Fin cfg0.N := ⟨(i 0).val, hi0.trans_eq N_0.symm⟩
  obtain ⟨-, -, -, -, -, -, -, -, -, -, -, -, -, -, -, -, -, -, e0, e1, e2⟩ := idx_facts t
  refine ⟨t, flush0_7 t, ?_⟩
  show i ∈ ((View.whole main_v3_1).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; rw [e0]; show (i 0).val * 1 ≤ (i 0).val ∧ (i 0).val < (i 0).val * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 512 ≤ (i 2).val ∧ (i 2).val < win0_7.index t (2 : Fin 3) * 512 + 512; omega

/-- The hidden-state result after the run. -/
theorem final_hidden (c : Dev nD) : (dats m 0 c).arrAt 6 cfg0.N = hiddenOfArgs m c :=
  (dats m 0 c).arrAt_eq_of_cover 6 (hiddenOfArgs m c) (fun t _ => flushed_hidden m c t) cover_hidden

/-- The cell-state result after the run. -/
theorem final_cell (c : Dev nD) : (dats m 0 c).arrAt 7 cfg0.N = cellOfArgs m c :=
  (dats m 0 c).arrAt_eq_of_cover 7 (cellOfArgs m c) (fun t _ => flushed_cell m c t) cover_cell

/-! ## The run, read -/

/-- Every weakly fair execution of the idealized kernel's @main terminates with the first result at the next hidden
    state and the second at the next cell state of the arguments, the arguments unchanged. -/
theorem run : θ_run defs (onTc (τ := τ) (main (F := Ideal))) ⟨m, fun _ => 0, ρ⟩ fun r => ∀ c : Dev nD,
      r.2.mem ((c.tc : Thread nD τ).loc main_v3_0) = hiddenOfArgs m c
      ∧ r.2.mem ((c.tc : Thread nD τ).loc main_v3_1) = cellOfArgs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (final_hidden m c), ((h c).1 7).trans (final_cell m c), kept_args m h c⟩)
    (run_main m ρ)

end Cert.KernelIdeal.Val

end
-- ==== Proof.RefValue.lean ====
/-
  The reference's two results, at the extended reals, are the LSTM cell step of its fifteen arguments.

  The reference flattens (batch, map unit) into one row axis, multiplies by the four gates' weights laid side by side,
  adds the two products, un-flattens into (batch, map unit, gate, hidden unit), takes each gate's slice, adds that
  gate's bias (broadcast over the batch), and applies 1 / (1 + e^(-·)) or tanh. Read at (b, m, n), row b·512 + m and
  column 512 g + n of the products are the two sums of the specification, and 1 / (1 + e^(-z)) is the logistic
  function.
-/
import proofs.«146787_j18708877541467_1_alg».proof.Proof.Gen.ReferenceIdeal.Read
import proofs.«146787_j18708877541467_1_alg».proof.Proof.Spec
import proofs.«146787_j18708877541467_1_alg».proof.Proof.LibPlainDot
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Lstm

variable (m : (ℓ : Loc nD τ sig) → Buf (Elt Ideal) ℓ) (c : Dev nD)

section Stages

variable (x0 : FVec Ideal ⟨3, ![64, 512, 64]⟩ .f32) (x1 x2 : FVec Ideal ⟨3, ![64, 512, 512]⟩ .f32)
  (x3 x6 x9 x12 : FVec Ideal ⟨2, ![64, 512]⟩ .f32)
  (x4 x5 x7 x8 x10 x11 x13 x14 : FVec Ideal ⟨2, ![512, 512]⟩ .f32)

/-- The reference's concatenation of the four input-weight arrays is the specification's `inputCols`. -/
theorem inputCols_eq : Read.val_main_v2 (F := Ideal) x3 x6 x9 x12 = inputCols x3 x6 x9 x12 := rfl

/-- The reference's concatenation of the four recurrent-weight arrays is the specification's `squareCols`. -/
theorem squareCols_eq : Read.val_main_v3 (F := Ideal) x4 x7 x10 x13 = squareCols x4 x7 x10 x13 := rfl

/-- Entry (b, m, g, n) of the un-flattened input product: row b·512 + m of the flattened input against column
    512 g + n of the input weights, a sum over the 64 input features. -/
theorem inputProd_at (b : Fin 64) (mm : Fin 512) (g : Fin 4) (n : Fin 512) :
    Read.val_main_v4 (F := Ideal) x0 x3 x6 x9 x12 (Read.idx_main_v7 (ix4 b mm g n))
      = ∑ a : Fin 64, x0 (ix3 b mm a) * inputCols x3 x6 x9 x12 (ix2 a (col g n)) := by
  have hb := b.isLt; have hm := mm.isLt; have hg := g.isLt; have hn := n.isLt
  rw [Read.val_main_v4_apply]
  refine Finset.sum_congr rfl fun a _ => ?_
  have ha := a.isLt
  have el : Read.idx_main_v0 (Read.lidx_main_v4 (Read.idx_main_v7 (ix4 b mm g n)) a) = ix3 b mm a := funext fun d => Fin.ext (by
    match d with
    | ⟨0, _⟩ => show ((((b.val * 512 + mm.val) * 4 + g.val) * 512 + n.val) / 2048 * 64 + a.val) / 32768 = b.val; omega
    | ⟨1, _⟩ => show ((((b.val * 512 + mm.val) * 4 + g.val) * 512 + n.val) / 2048 * 64 + a.val) / 64 % 512 = mm.val; omega
    | ⟨2, _⟩ => show ((((b.val * 512 + mm.val) * 4 + g.val) * 512 + n.val) / 2048 * 64 + a.val) % 64 = a.val; omega)
  have er : Read.ridx_main_v4 (Read.idx_main_v7 (ix4 b mm g n)) a = ix2 a (col g n) := funext fun d => Fin.ext (by
    match d with
    | ⟨0, _⟩ => rfl
    | ⟨1, _⟩ => show (((b.val * 512 + mm.val) * 4 + g.val) * 512 + n.val) % 2048 = g.val * 512 + n.val; omega)
  rw [Read.val_main_v0_apply, el, er, inputCols_eq]

/-- Entry (b, m, g, n) of the un-flattened recurrent product: row b·512 + m of the flattened hidden state against
    column 512 g + n of the recurrent weights, a sum over the 512 hidden units. -/
theorem hiddenProd_at (b : Fin 64) (mm : Fin 512) (g : Fin 4) (n : Fin 512) :
    Read.val_main_v5 (F := Ideal) x1 x4 x7 x10 x13 (Read.idx_main_v7 (ix4 b mm g n))
      = ∑ k : Fin 512, x1 (ix3 b mm k) * squareCols x4 x7 x10 x13 (ix2 k (col g n)) := by
  have hb := b.isLt; have hm := mm.isLt; have hg := g.isLt; have hn := n.isLt
  rw [Read.val_main_v5_apply]
  refine Finset.sum_congr rfl fun k _ => ?_
  have hk := k.isLt
  have el : Read.idx_main_v1 (Read.lidx_main_v5 (Read.idx_main_v7 (ix4 b mm g n)) k) = ix3 b mm k := funext fun d => Fin.ext (by
    match d with
    | ⟨0, _⟩ => show ((((b.val * 512 + mm.val) * 4 + g.val) * 512 + n.val) / 2048 * 512 + k.val) / 262144 = b.val; omega
    | ⟨1, _⟩ => show ((((b.val * 512 + mm.val) * 4 + g.val) * 512 + n.val) / 2048 * 512 + k.val) / 512 % 512 = mm.val; omega
    | ⟨2, _⟩ => show ((((b.val * 512 + mm.val) * 4 + g.val) * 512 + n.val) / 2048 * 512 + k.val) % 512 = k.val; omega)
  have er : Read.ridx_main_v5 (Read.idx_main_v7 (ix4 b mm g n)) k = ix2 k (col g n) := funext fun d => Fin.ext (by
    match d with
    | ⟨0, _⟩ => rfl
    | ⟨1, _⟩ => show (((b.val * 512 + mm.val) * 4 + g.val) * 512 + n.val) % 2048 = g.val * 512 + n.val; omega)
  rw [Read.val_main_v1_apply, el, er, squareCols_eq]

/-- The four gates' pre-activations before the bias: entry (b, m, g, n) of the un-flattened sum of the two products. -/
theorem preBias_at (b : Fin 64) (mm : Fin 512) (g : Fin 4) (n : Fin 512) :
    Read.val_main_v7 (F := Ideal) x0 x1 x3 x4 x6 x7 x9 x10 x12 x13 (ix4 b mm g n)
      = (∑ a : Fin 64, x0 (ix3 b mm a) * inputCols x3 x6 x9 x12 (ix2 a (col g n)))
        + ∑ k : Fin 512, x1 (ix3 b mm k) * squareCols x4 x7 x10 x13 (ix2 k (col g n)) := by
  rw [Read.val_main_v7_apply, Read.val_main_v6_apply, inputProd_at, hiddenProd_at, Ideal.addf_def]

/-- The input gate's pre-activation: slice 0 of the gate axis, plus its bias broadcast over the batch. -/
theorem inputGate_at (b : Fin 64) (mm n : Fin 512) :
    Read.val_main_v12 (F := Ideal) x0 x1 x3 x4 x5 x6 x7 x9 x10 x12 x13 (ix3 b mm n)
      = preGate x0 x1 (inputCols x3 x6 x9 x12) (squareCols x4 x7 x10 x13) 0 x5 b mm n := by
  have hb := b.isLt; have hm := mm.isLt; have hn := n.isLt
  have e4 : Read.idx_main_v8 (Read.idx_main_v9 (ix3 b mm n)) = ix4 b mm 0 n := funext fun d => Fin.ext (by
    match d with
    | ⟨0, _⟩ => show ((b.val * 512 + mm.val) * 512 + n.val) / 262144 = b.val; omega
    | ⟨1, _⟩ => show ((b.val * 512 + mm.val) * 512 + n.val) / 512 % 512 = mm.val; omega
    | ⟨2, _⟩ => rfl
    | ⟨3, _⟩ => show ((b.val * 512 + mm.val) * 512 + n.val) % 512 = n.val; omega)
  have e2 : Read.idx_main_v10 (Read.idx_main_v11 (ix3 b mm n)) = ix2 mm n := funext fun d => Fin.ext (by
    match d with
    | ⟨0, _⟩ => rfl
    | ⟨1, _⟩ => rfl)
  rw [Read.val_main_v12_apply, Read.val_main_v9_apply, Read.val_main_v8_apply, Read.val_main_v11_apply,
    Read.val_main_v10_apply, e4, e2, preBias_at, Ideal.addf_def]
  rfl

/-- The forget gate's pre-activation: slice 1 of the gate axis, plus its bias broadcast over the batch. -/
theorem forgetGate_at (b : Fin 64) (mm n : Fin 512) :
    Read.val_main_v17 (F := Ideal) x0 x1 x3 x4 x6 x7 x8 x9 x10 x12 x13 (ix3 b mm n)
      = preGate x0 x1 (inputCols x3 x6 x9 x12) (squareCols x4 x7 x10 x13) 1 x8 b mm n := by
  have hb := b.isLt; have hm := mm.isLt; have hn := n.isLt
  have e4 : Read.idx_main_v13 (Read.idx_main_v14 (ix3 b mm n)) = ix4 b mm 1 n := funext fun d => Fin.ext (by
    match d with
    | ⟨0, _⟩ => show ((b.val * 512 + mm.val) * 512 + n.val) / 262144 = b.val; omega
    | ⟨1, _⟩ => show ((b.val * 512 + mm.val) * 512 + n.val) / 512 % 512 = mm.val; omega
    | ⟨2, _⟩ => rfl
    | ⟨3, _⟩ => show ((b.val * 512 + mm.val) * 512 + n.val) % 512 = n.val; omega)
  have e2 : Read.idx_main_v15 (Read.idx_main_v16 (ix3 b mm n)) = ix2 mm n := funext fun d => Fin.ext (by
    match d with
    | ⟨0, _⟩ => rfl
    | ⟨1, _⟩ => rfl)
  rw [Read.val_main_v17_apply, Read.val_main_v14_apply, Read.val_main_v13_apply, Read.val_main_v16_apply,
    Read.val_main_v15_apply, e4, e2, preBias_at, Ideal.addf_def]
  rfl

/-- The output gate's pre-activation: slice 2 of the gate axis, plus its bias broadcast over the batch. -/
theorem outputGate_at (b : Fin 64) (mm n : Fin 512) :
    Read.val_main_v22 (F := Ideal) x0 x1 x3 x4 x6 x7 x9 x10 x11 x12 x13 (ix3 b mm n)
      = preGate x0 x1 (inputCols x3 x6 x9 x12) (squareCols x4 x7 x10 x13) 2 x11 b mm n := by
  have hb := b.isLt; have hm := mm.isLt; have hn := n.isLt
  have e4 : Read.idx_main_v18 (Read.idx_main_v19 (ix3 b mm n)) = ix4 b mm 2 n := funext fun d => Fin.ext (by
    match d with
    | ⟨0, _⟩ => show ((b.val * 512 + mm.val) * 512 + n.val) / 262144 = b.val; omega
    | ⟨1, _⟩ => show ((b.val * 512 + mm.val) * 512 + n.val) / 512 % 512 = mm.val; omega
    | ⟨2, _⟩ => rfl
    | ⟨3, _⟩ => show ((b.val * 512 + mm.val) * 512 + n.val) % 512 = n.val; omega)
  have e2 : Read.idx_main_v20 (Read.idx_main_v21 (ix3 b mm n)) = ix2 mm n := funext fun d => Fin.ext (by
    match d with
    | ⟨0, _⟩ => rfl
    | ⟨1, _⟩ => rfl)
  rw [Read.val_main_v22_apply, Read.val_main_v19_apply, Read.val_main_v18_apply, Read.val_main_v21_apply,
    Read.val_main_v20_apply, e4, e2, preBias_at, Ideal.addf_def]
  rfl

/-- The candidate gate's pre-activation: slice 3 of the gate axis, plus its bias broadcast over the batch. -/
theorem candidateGate_at (b : Fin 64) (mm n : Fin 512) :
    Read.val_main_v27 (F := Ideal) x0 x1 x3 x4 x6 x7 x9 x10 x12 x13 x14 (ix3 b mm n)
      = preGate x0 x1 (inputCols x3 x6 x9 x12) (squareCols x4 x7 x10 x13) 3 x14 b mm n := by
  have hb := b.isLt; have hm := mm.isLt; have hn := n.isLt
  have e4 : Read.idx_main_v23 (Read.idx_main_v24 (ix3 b mm n)) = ix4 b mm 3 n := funext fun d => Fin.ext (by
    match d with
    | ⟨0, _⟩ => show ((b.val * 512 + mm.val) * 512 + n.val) / 262144 = b.val; omega
    | ⟨1, _⟩ => show ((b.val * 512 + mm.val) * 512 + n.val) / 512 % 512 = mm.val; omega
    | ⟨2, _⟩ => rfl
    | ⟨3, _⟩ => show ((b.val * 512 + mm.val) * 512 + n.val) % 512 = n.val; omega)
  have e2 : Read.idx_main_v25 (Read.idx_main_v26 (ix3 b mm n)) = ix2 mm n := funext fun d => Fin.ext (by
    match d with
    | ⟨0, _⟩ => rfl
    | ⟨1, _⟩ => rfl)
  rw [Read.val_main_v27_apply, Read.val_main_v24_apply, Read.val_main_v23_apply, Read.val_main_v26_apply,
    Read.val_main_v25_apply, e4, e2, preBias_at, Ideal.addf_def]
  rfl

/-- The next cell state at (b, m, n): forget gate times the old cell state plus input gate times the candidate, with
    1 / (1 + e^(-z)) read as the logistic function. -/
theorem cell_at (b : Fin 64) (mm n : Fin 512) :
    Read.val_main_v49 (F := Ideal) x0 x1 x2 x3 x4 x5 x6 x7 x8 x9 x10 x12 x13 x14 (ix3 b mm n)
      = cellNext x0 x1 x2 (inputCols x3 x6 x9 x12) (squareCols x4 x7 x10 x13) x5 x8 x14 b mm n := by
  simp only [Read.val_main_v49_apply, Read.val_main_v47_apply, Read.val_main_v48_apply, Read.val_main_v39_apply,
    Read.val_main_v38_apply, Read.val_main_cst_2_apply, Read.val_main_v37_apply, Read.val_main_v36_apply,
    Read.val_main_cst_1_apply, Read.val_main_v35_apply, Read.val_main_v34_apply, Read.val_main_v33_apply,
    Read.val_main_v32_apply, Read.val_main_cst_0_apply, Read.val_main_v31_apply, Read.val_main_v30_apply,
    Read.val_main_cst_apply, Read.val_main_v29_apply, Read.val_main_v28_apply, Read.val_main_v46_apply,
    inputGate_at, forgetGate_at, candidateGate_at, Ideal.ofBits_def, Ideal.ofBits_one_f32, Ideal.addf_def, Ideal.mulf_def,
    Ideal.hostDivf_def, Ideal.hostUnary_exp_def, Ideal.hostUnary_tanh_def, Ideal.hostNegf_def, Ideal.negf_def]
  rfl

/-- The next hidden state at (b, m, n): output gate times tanh of the next cell state. -/
theorem hidden_at (b : Fin 64) (mm n : Fin 512) :
    Read.val_main_v51 (F := Ideal) x0 x1 x2 x3 x4 x5 x6 x7 x8 x9 x10 x11 x12 x13 x14 (ix3 b mm n)
      = hiddenNext x0 x1 x2 (inputCols x3 x6 x9 x12) (squareCols x4 x7 x10 x13) x5 x8 x11 x14 b mm n := by
  simp only [Read.val_main_v51_apply, Read.val_main_v50_apply, Read.val_main_v45_apply, Read.val_main_v44_apply,
    Read.val_main_cst_4_apply, Read.val_main_v43_apply, Read.val_main_v42_apply, Read.val_main_cst_3_apply,
    Read.val_main_v41_apply, Read.val_main_v40_apply, outputGate_at, cell_at, Ideal.ofBits_def, Ideal.ofBits_one_f32,
    Ideal.addf_def, Ideal.mulf_def, Ideal.hostDivf_def, Ideal.hostUnary_exp_def, Ideal.hostUnary_tanh_def,
    Ideal.hostNegf_def, Ideal.negf_def]
  rfl

end Stages

/-- The first result (the next hidden state) is `hiddenOf` of the fifteen arguments. -/
theorem hidden_eq : Cert.ReferenceIdeal.Value.res_out0 (F := Ideal) m c
    = hiddenOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) := by
  refine (Read.val_main_v51_eq (F := Ideal) m c).trans ?_
  funext j
  obtain ⟨b, mm, n, rfl⟩ : ∃ (b : Fin 64) (mm n : Fin 512), j = ix3 b mm n := ⟨j 0, j 1, j 2, eq_ix3 j⟩
  exact hidden_at _ _ _ _ _ _ _ _ _ _ _ _ _ _ _ b mm n

/-- The second result (the next cell state) is `cellOf` of the fifteen arguments. -/
theorem cell_eq : Cert.ReferenceIdeal.Value.res_out1 (F := Ideal) m c
    = cellOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) := by
  refine (Read.val_main_v49_eq (F := Ideal) m c).trans ?_
  funext j
  obtain ⟨b, mm, n, rfl⟩ : ∃ (b : Fin 64) (mm n : Fin 512), j = ix3 b mm n := ⟨j 0, j 1, j 2, eq_ix3 j⟩
  exact cell_at _ _ _ _ _ _ _ _ _ _ _ _ _ _ b mm n

end Cert.ReferenceIdeal.RefValue

end
-- ==== Proof.lean ====
/-
  The certificate of the LSTM cell kernel against its jnp reference: the five claims of Defs.lean.

  Both programs compute, for every batch entry b, map unit m and hidden unit n, the four gate pre-activations
  (Σₐ x·W + Σₖ h·U) + bias from weights laid side by side by the same three concatenations, then
  c' = σ(f)·c + σ(i)·tanh(g) and h' = σ(o)·tanh(c'). At the extended reals the kernel's bf16 casts are the identity,
  its matrix products into a zero accumulator are the plain sums, and its logistic is 1 / (1 + e^(-·)), the very
  expression the reference spells; the two programs differ only in layout (the kernel works one batch entry at a
  time on 512 × 2048 slabs, the reference on the flattened 32768-row arrays), so the results agree with no
  hypothesis on the inputs beyond what the statement carries.

  frame_Kernel, frame_KernelIdeal: the one pipelined region after three host concatenations, run at the word level
  and at the extended reals (KernelFrame, KernelIdealFrame). frame_ReferenceIdeal: the reference's run with its
  results dropped. preserves: the idealization rewrote nothing. algebraic: the kernel's two result arrays
  (KernelValue) and the reference's two result terms (RefValue) are one function of the fifteen arguments (Spec).
-/
import proofs.«146787_j18708877541467_1_alg».proof.Defs
import proofs.«146787_j18708877541467_1_alg».proof.Proof.Gen.Kernel
import proofs.«146787_j18708877541467_1_alg».proof.Proof.Gen.Kernel.Skeleton
import proofs.«146787_j18708877541467_1_alg».proof.Proof.Gen.Kernel.Launch
import proofs.«146787_j18708877541467_1_alg».proof.Proof.Gen.Kernel.Points
import proofs.«146787_j18708877541467_1_alg».proof.Proof.Gen.KernelIdeal
import proofs.«146787_j18708877541467_1_alg».proof.Proof.Gen.KernelIdeal.Skeleton
import proofs.«146787_j18708877541467_1_alg».proof.Proof.Gen.KernelIdeal.Launch
import proofs.«146787_j18708877541467_1_alg».proof.Proof.Gen.KernelIdeal.Points
import proofs.«146787_j18708877541467_1_alg».proof.Proof.Gen.ReferenceIdeal
import proofs.«146787_j18708877541467_1_alg».proof.Proof.Gen.Pre_finite_inputs
import proofs.«146787_j18708877541467_1_alg».proof.Proof.Gen.ReferenceIdeal.Run
import proofs.«146787_j18708877541467_1_alg».proof.Proof.Gen.ReferenceIdeal.Read
import proofs.«146787_j18708877541467_1_alg».proof.Proof.KernelFrame
import proofs.«146787_j18708877541467_1_alg».proof.Proof.KernelIdealFrame
import proofs.«146787_j18708877541467_1_alg».proof.Proof.KernelValue
import proofs.«146787_j18708877541467_1_alg».proof.Proof.RefValue
import Idealize.ShloMosaic.Adequacy
import Idealize.ShloMosaic.Init

noncomputable section

namespace Cert.Proof

open Idealize.ShloMosaic Idealize.SL.Sem

/-- The word-level kernel runs to the end and keeps its arguments. -/
theorem frame_kernel : @Cert.frame_Kernel Cert.Kernel.Gen.facts Cert.Pre_finite_inputs.Gen.facts :=
  fun m ρ _ => Cert.Kernel.Frm.frame m ρ

/-- So does the idealized kernel. -/
theorem frame_kernelIdeal : @Cert.frame_KernelIdeal Cert.KernelIdeal.Gen.facts Cert.Pre_finite_inputs.Gen.facts :=
  fun m ρ _ => Cert.KernelIdeal.Frm.frame m ρ

/-- And the idealized reference: its run, the two results dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories that agree on the fifteen arguments the two idealized programs end with the same next hidden state
    and the same next cell state: the specification's functions of the kernel's arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Val.hiddenOfArgs m c, fun c => Cert.KernelIdeal.Val.cellOfArgs m c,
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    refine (Cert.ReferenceIdeal.RefValue.hidden_eq m' c).trans ?_
    rw [h0, h1, h2, h3, h4, h5, h6, h7, h8, h9, h10, h11, h12, h13, h14]
  · obtain ⟨h0, h1, h2, h3, h4, h5, h6, h7, h8, h9, h10, h11, h12, h13, h14⟩ := hagree c
    refine (Cert.ReferenceIdeal.RefValue.cell_eq m' c).trans ?_
    rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
